-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S2x1x128 : Shape := ⟨3, ![2, 1, 128]⟩
abbrev S4096x128 : Shape := ⟨2, ![4096, 128]⟩
abbrev S1x1x128 : Shape := ⟨3, ![1, 1, 128]⟩
abbrev S1x128 : Shape := ⟨2, ![1, 128]⟩
abbrev S1x4096x128 : Shape := ⟨3, ![1, 4096, 128]⟩
abbrev S1 : Shape := ⟨1, ![1]⟩
abbrev S1x1x1 : Shape := ⟨3, ![1, 1, 1]⟩
abbrev S2x1x15 : Shape := ⟨3, ![2, 1, 15]⟩
abbrev S2x15 : Shape := ⟨2, ![2, 15]⟩
abbrev S_ : Shape := ⟨0, ![]⟩
abbrev S15 : Shape := ⟨1, ![15]⟩

abbrev nBuf : Space → Nat
  | .hbm => 32
  | .vmem => 13
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S262144x128, .f32⟩
  | .hbm, ⟨3, _⟩ => ⟨S262144x128, .i32⟩
  | .hbm, ⟨4, _⟩ => ⟨S2x1x128, .f32⟩
  | .hbm, ⟨5, _⟩ => ⟨S2x1x128, .f32⟩
  | .hbm, ⟨6, _⟩ => ⟨S2x1x128, .f32⟩
  | .hbm, ⟨7, _⟩ => ⟨S2x1x15, .f32⟩
  | .hbm, ⟨8, _⟩ => ⟨S2x15, .f32⟩
  | .hbm, ⟨9, _⟩ => ⟨S_, .f32⟩
  | .hbm, ⟨10, _⟩ => ⟨S15, .f32⟩
  | .hbm, ⟨11, _⟩ => ⟨S2x1x15, .f32⟩
  | .hbm, ⟨12, _⟩ => ⟨S2x15, .f32⟩
  | .hbm, ⟨13, _⟩ => ⟨S_, .f32⟩
  | .hbm, ⟨14, _⟩ => ⟨S15, .f32⟩
  | .hbm, ⟨15, _⟩ => ⟨S2x1x15, .f32⟩
  | .hbm, ⟨16, _⟩ => ⟨S2x15, .f32⟩
  | .hbm, ⟨17, _⟩ => ⟨S_, .f32⟩
  | .hbm, ⟨18, _⟩ => ⟨S15, .f32⟩
  | .hbm, ⟨19, _⟩ => ⟨S_, .f32⟩
  | .hbm, ⟨20, _⟩ => ⟨S15, .f32⟩
  | .hbm, ⟨21, _⟩ => ⟨S15, .f32⟩
  | .hbm, ⟨22, _⟩ => ⟨S15, .f32⟩
  | .hbm, ⟨23, _⟩ => ⟨S15, .f32⟩
  | .hbm, ⟨24, _⟩ => ⟨S_, .f32⟩
  | .hbm, ⟨25, _⟩ => ⟨S15, .f32⟩
  | .hbm, ⟨26, _⟩ => ⟨S15, .f32⟩
  | .hbm, ⟨27, _⟩ => ⟨S15, .f32⟩
  | .hbm, ⟨28, _⟩ => ⟨S15, .f32⟩
  | .hbm, ⟨29, _⟩ => ⟨S15, .f32⟩
  | .hbm, ⟨30, _⟩ => ⟨S_, .f32⟩
  | .hbm, ⟨31, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .i32⟩
  | .local _ .vmem, ⟨3, _⟩ => ⟨S4096x128, .i32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v524 : BitVec 1 := Scalar.cmpi .eq arg1 c31_i32
  let v525 : BitVec 32 := Scalar.extui v524
  let c0_i32_85 : BitVec 32 := 0#32
  let v526 : BitVec 1 := Scalar.cmpi .ne v525 c0_i32_85
  v526

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S33554432_S262144x128 : S33554432.ShapeCasts S262144x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  natLt_1_32 : 1 < 32
  iota_S1x128_d1_w32 : S1x128.Iotas .tc 32 [1]
  shapeCasts_S4096x128_S1x4096x128 : S4096x128.ShapeCasts S1x4096x128
  reduces_S1x4096x128_S1 : S1x4096x128.Reduces [1, 2] S1
  shapeCasts_S1_S1x1x1 : S1.ShapeCasts S1x1x1
  inpos_S1x1x1_p0_0_0 : ∀ a, (![0, 0, 0] : Fin 3 → Nat) a < S1x1x1.size a
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  slices_S2x1x128_S2x1x15_0_0_0 : S2x1x128.Slices ![0, 0, 0] S2x1x15
  shapeCasts_S2x1x15_S2x15 : S2x1x15.ShapeCasts S2x15
  reducesTo_S2x15_S15_d0 : S2x15.ReducesTo [0] S15
  h_S_ : 0 < S_.numel
  bcast_S_S15 : S_.BroadcastsInDim S15 (![] : Fin 0 → Fin S15.rank)
  reducesTo_S15_S_d0 : S15.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .i32 = 32 ∨ (Rect.block (s := S262144x128) S4096x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩
abbrev S15 : Shape := ⟨1, ![15]⟩
abbrev S33554432x1 : Shape := ⟨2, ![33554432, 1]⟩

abbrev nBuf : Space → Nat
  | .hbm => 54
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S_, .f32⟩
  | .hbm, ⟨3, _⟩ => ⟨S33554432, .f32⟩
  | .hbm, ⟨4, _⟩ => ⟨S33554432, .f32⟩
  | .hbm, ⟨5, _⟩ => ⟨S33554432, .f32⟩
  | .hbm, ⟨6, _⟩ => ⟨S33554432, .i32⟩
  | .hbm, ⟨7, _⟩ => ⟨S_, .i32⟩
  | .hbm, ⟨8, _⟩ => ⟨S33554432, .i32⟩
  | .hbm, ⟨9, _⟩ => ⟨S33554432, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S33554432, .i32⟩
  | .hbm, ⟨14, _⟩ => ⟨S33554432, .i32⟩
  | .hbm, ⟨15, _⟩ => ⟨S_, .i32⟩
  | .hbm, ⟨16, _⟩ => ⟨S33554432, .i32⟩
  | .hbm, ⟨17, _⟩ => ⟨S33554432, .i32⟩
  | .hbm, ⟨18, _⟩ => ⟨S_, .f32⟩
  | .hbm, ⟨19, _⟩ => ⟨S33554432, .f32⟩
  | .hbm, ⟨20, _⟩ => ⟨S33554432, .i1⟩
  | .hbm, ⟨21, _⟩ => ⟨S_, .f32⟩
  | .hbm, ⟨22, _⟩ => ⟨S33554432, .f32⟩
  | .hbm, ⟨23, _⟩ => ⟨S33554432, .i1⟩
  | .hbm, ⟨24, _⟩ => ⟨S33554432, .i1⟩
  | .hbm, ⟨25, _⟩ => ⟨S33554432, .f32⟩
  | .hbm, ⟨26, _⟩ => ⟨S_, .f32⟩
  | .hbm, ⟨27, _⟩ => ⟨S15, .f32⟩
  | .hbm, ⟨28, _⟩ => ⟨S33554432x1, .i32⟩
  | .hbm, ⟨29, _⟩ => ⟨S15, .f32⟩
  | .hbm, ⟨30, _⟩ => ⟨S33554432, .f32⟩
  | .hbm, ⟨31, _⟩ => ⟨S_, .f32⟩
  | .hbm, ⟨32, _⟩ => ⟨S15, .f32⟩
  | .hbm, ⟨33, _⟩ => ⟨S33554432x1, .i32⟩
  | .hbm, ⟨34, _⟩ => ⟨S15, .f32⟩
  | .hbm, ⟨35, _⟩ => ⟨S33554432, .f32⟩
  | .hbm, ⟨36, _⟩ => ⟨S33554432, .f32⟩
  | .hbm, ⟨37, _⟩ => ⟨S_, .f32⟩
  | .hbm, ⟨38, _⟩ => ⟨S15, .f32⟩
  | .hbm, ⟨39, _⟩ => ⟨S33554432x1, .i32⟩
  | .hbm, ⟨40, _⟩ => ⟨S15, .f32⟩
  | .hbm, ⟨41, _⟩ => ⟨S_, .f32⟩
  | .hbm, ⟨42, _⟩ => ⟨S15, .f32⟩
  | .hbm, ⟨43, _⟩ => ⟨S15, .f32⟩
  | .hbm, ⟨44, _⟩ => ⟨S15, .f32⟩
  | .hbm, ⟨45, _⟩ => ⟨S15, .f32⟩
  | .hbm, ⟨46, _⟩ => ⟨S_, .f32⟩
  | .hbm, ⟨47, _⟩ => ⟨S15, .f32⟩
  | .hbm, ⟨48, _⟩ => ⟨S15, .f32⟩
  | .hbm, ⟨49, _⟩ => ⟨S15, .f32⟩
  | .hbm, ⟨50, _⟩ => ⟨S15, .f32⟩
  | .hbm, ⟨51, _⟩ => ⟨S15, .f32⟩
  | .hbm, ⟨52, _⟩ => ⟨S_, .f32⟩
  | .hbm, ⟨53, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  bcast_S_S15 : S_.BroadcastsInDim S15 (![] : Fin 0 → Fin S15.rank)
  bcast_S33554432_S33554432x1_0 : S33554432.BroadcastsInDim S33554432x1 (![0] : Fin 1 → Fin S33554432x1.rank)
  reducesTo_S15_S_d0 : S15.ReducesTo [0] S_
  h_S_ : 0 < S_.numel
  scatter_S15_S33554432x1_S33554432_n_0_0_1_wf : ScatterDims.WF S15 S33554432x1 S33554432 [] [0] [0] 1

variable [Facts₀]

def scatter_S15_S33554432x1_S33554432_n_0_0_1 : ScatterDims S15 S33554432x1 S33554432 where
  updateWindowDims := []
  insertedWindowDims := [0]
  scatterDimsToOperandDims := [0]
  indexVectorDim := 1
  wf := scatter_S15_S33554432x1_S33554432_n_0_0_1_wf

class Facts : Prop extends Facts₀ where

variable [Facts]
-- ==== Proof.Bins.lean ====
/-
  The binned statistics of an expected-calibration-error computation, stated once over the extended reals.

  A sample is a confidence `p` (an extended real) and a label word.  Its bin word is `ceil (15 p) - 1` read as a
  32-bit integer and clipped into `[0, 14]`; it counts (weight one) when `0 < p ≤ 1`, and not at all otherwise.
  Per bin `k` three totals are taken over all samples: the count, the sum of the confidences, the sum of the labels,
  each restricted to the samples of bin `k` by the indicator of the bin word.
-/
import Idealize.ShloMosaic.PureOps.Ideal
import Idealize.ShloMosaic.PureOps.Ideal.Laws
import Idealize.ShloMosaic.Lib.ValueIdx

noncomputable section

namespace Cert.Ece

open Idealize.ShloMosaic

/-- The indicator of equality of two words, as an extended real. -/
def ind (a b : BitVec 32) : EReal := if a = b then 1 else 0

/-- The bin word of a confidence: `ceil (15 p) - 1`, as a 32-bit integer, clipped into `[0, 14]`. -/
def binWord (p : EReal) : BitVec 32 :=
  IntOp.minsi 14#32 (IntOp.maxsi 0#32
    (IntOp.subi (Ideal.fptosi 32 (Ideal.liftRound Int.ceil (p * Ideal.ofBits .f32 0x41700000#32))) 1#32))

/-- The bit saying that a confidence lies in `(0, 1]`. -/
def valid (p : EReal) : BitVec 1 :=
  IntOp.andi (Ideal.cmp .ogt p (Ideal.ofBits .f32 0x00000000#32)) (Ideal.cmp .ole p (Ideal.ofBits .f32 0x3F800000#32))

/-- The weight of a sample: one when its confidence lies in `(0, 1]`, zero otherwise. -/
def weight (p : EReal) : EReal := (((valid p).toNat : ℝ) : EReal)

/-- A label word as an extended real: the signed integer it denotes. -/
def label (l : BitVec 32) : EReal := ((l.toInt : ℝ) : EReal)

/-- The share of one sample in bin `k`'s count. -/
def cntTerm (k : BitVec 32) (p : EReal) : EReal := ind (binWord p) k * weight p

/-- The shape of the sample arrays: one axis of 33554432 entries. -/
abbrev SN : Shape := ⟨1, ![33554432]⟩

/-- Bin `k`'s count over all samples. -/
def cntTot (P : SN.Idx → EReal) (k : BitVec 32) : EReal := ∑ e : SN.Idx, cntTerm k (P e)

/-- Bin `k`'s sum of confidences over all samples. -/
def confTot (P : SN.Idx → EReal) (k : BitVec 32) : EReal := ∑ e : SN.Idx, cntTerm k (P e) * P e

/-- Bin `k`'s sum of labels over all samples. -/
def accTot (P : SN.Idx → EReal) (Lb : SN.Idx → BitVec 32) (k : BitVec 32) : EReal :=
  ∑ e : SN.Idx, cntTerm k (P e) * label (Lb e)

/-- A one-bit word widened to 32 bits and read signed is the bit read unsigned. -/
theorem toInt_setWidth_bit (b : BitVec 1) : (b.setWidth 32).toInt = (b.toNat : Int) := by
  have h : ∀ b : BitVec 1, (b.setWidth 32).toInt = (b.toNat : Int) := by decide
  exact h b

/-- Compare-for-equality, widen, convert: the indicator. -/
theorem sitofp_cmpi_eq (a b : BitVec 32) :
    FloatOps.sitofp (F := Ideal) .f32 ((IntOp.cmpi .eq a b).setWidth 32) = ind a b := by
  show (((((IntOp.cmpi .eq a b).setWidth 32).toInt : ℝ)) : EReal) = ind a b
  rw [toInt_setWidth_bit]
  unfold ind IntOp.cmpi
  by_cases h : a = b
  · subst h; simp
  · have : (a == b) = false := by simpa using h
    simp [this, h]

/-- The validity bit widened and converted signed is the weight. -/
theorem sitofp_valid (p : EReal) :
    FloatOps.sitofp (F := Ideal) .f32 ((valid p).setWidth 32) = weight p := by
  show (((((valid p).setWidth 32).toInt : ℝ)) : EReal) = weight p
  rw [toInt_setWidth_bit]; unfold weight; norm_cast

/-- The validity bit converted unsigned is the weight. -/
theorem uitofp_valid (p : EReal) : FloatOps.uitofp (F := Ideal) .f32 (valid p) = weight p := rfl

end Cert.Ece

end
-- ==== Proof.RefBins.lean ====
/-
  The reference's three binned totals, read as indicator sums.

  The reference computes each total with an accumulating scatter of one value per sample into a zero vector of
  fifteen bins, the scatter index of a sample being its clipped bin word.  An accumulating scatter gives bin `b`
  the sum of the updates whose index lands on `b`; for this scatter (one index component, read signed, no window
  axes) an update lands on `b` exactly when its index word read signed is `b`.  A word read signed is a number
  below fifteen exactly when it is that number's word, so the restricted sum is the sum over all samples of the
  value times the indicator of the bin word, which is the form the totals `cntTot`, `confTot`, `accTot` have.
-/
import proofs.«177050_j16947940950786_1_alg».proof.Proof.Gen.ReferenceIdeal.Read
import proofs.«177050_j16947940950786_1_alg».proof.Proof.Bins

noncomputable section

namespace Cert.Ece.Ref

open Cert.ReferenceIdeal Cert.ReferenceIdeal.Read Idealize.ShloMosaic

/-! ## The per-sample values -/

/-- The clipped index word of a sample is its bin word. -/
theorem v6_eq (x0 : (⟨S33554432, .f32⟩ : BufTy).Contents (Elt Ideal)) (e : S33554432.Idx) :
    val_main_v6 (F := Ideal) x0 e = Cert.Ece.binWord (x0 e) := by
  simp only [val_main_v6_apply, val_main_call0_v4_apply, val_main_call0_v3_apply, val_main_c_1_apply,
    val_main_call0_v2_apply, val_main_call0_v1_apply, val_main_call0_v0_apply, val_main_c_0_apply,
    val_main_v5_apply, val_main_v4_apply, val_main_c_apply, val_main_v3_apply, val_main_v2_apply,
    val_main_v1_apply, val_main_v0_apply, val_main_cst_apply]
  rfl

/-- The converted validity bit of a sample is its weight. -/
theorem v12_eq (x0 : (⟨S33554432, .f32⟩ : BufTy).Contents (Elt Ideal)) (e : S33554432.Idx) :
    val_main_v12 (F := Ideal) x0 e = Cert.Ece.weight (x0 e) := by
  simp only [val_main_v12_apply, val_main_v11_apply, val_main_v8_apply, val_main_v10_apply,
    val_main_v7_apply, val_main_v9_apply, val_main_cst_2_apply, val_main_cst_3_apply]
  rfl

/-- The weighted confidence of a sample. -/
theorem v16_eq (x0 : (⟨S33554432, .f32⟩ : BufTy).Contents (Elt Ideal)) (e : S33554432.Idx) :
    val_main_v16 (F := Ideal) x0 e = x0 e * Cert.Ece.weight (x0 e) := by
  rw [val_main_v16_apply, v12_eq]; rfl

/-- The weighted label of a sample. -/
theorem v21_eq (x0 : (⟨S33554432, .f32⟩ : BufTy).Contents (Elt Ideal))
    (x1 : (⟨S33554432, .i32⟩ : BufTy).Contents (Elt Ideal)) (e : S33554432.Idx) :
    val_main_v21 (F := Ideal) x0 x1 e = Cert.Ece.label (x1 e) * Cert.Ece.weight (x0 e) := by
  rw [val_main_v21_apply, v12_eq, val_main_v20_apply]; rfl

/-! ## The scatters' operands are zero -/

/-- The count scatter starts from zero in every bin. -/
theorem v13_eq (b : S15.Idx) : val_main_v13 (F := Ideal) b = 0 := by
  rw [val_main_v13_apply, val_main_cst_4_apply]; exact Ideal.ofBits_zero_f32

/-- The confidence scatter starts from zero in every bin. -/
theorem v17_eq (b : S15.Idx) : val_main_v17 (F := Ideal) b = 0 := by
  rw [val_main_v17_apply, val_main_cst_5_apply]; exact Ideal.ofBits_zero_f32

/-- The label scatter starts from zero in every bin. -/
theorem v22_eq (b : S15.Idx) : val_main_v22 (F := Ideal) b = 0 := by
  rw [val_main_v22_apply, val_main_cst_6_apply]; exact Ideal.ofBits_zero_f32

/-! ## The scatter indices: the bin words with a unit axis appended -/

/-- The count scatter's index for sample `j` is `j`'s bin word. -/
theorem v14_eq (x0 : (⟨S33554432, .f32⟩ : BufTy).Contents (Elt Ideal)) (j : S33554432.Idx) :
    val_main_v14 (F := Ideal) x0 (ValueIdx.ix2 (j 0) 0) = Cert.Ece.binWord (x0 j) := by
  rw [val_main_v14_apply, v6_eq]
  congr 2
  funext a
  match a with
  | ⟨0, _⟩ => rfl

/-- The confidence scatter's index for sample `j` is `j`'s bin word. -/
theorem v18_eq (x0 : (⟨S33554432, .f32⟩ : BufTy).Contents (Elt Ideal)) (j : S33554432.Idx) :
    val_main_v18 (F := Ideal) x0 (ValueIdx.ix2 (j 0) 0) = Cert.Ece.binWord (x0 j) := by
  rw [val_main_v18_apply, v6_eq]
  congr 2
  funext a
  match a with
  | ⟨0, _⟩ => rfl

/-- The label scatter's index for sample `j` is `j`'s bin word. -/
theorem v23_eq (x0 : (⟨S33554432, .f32⟩ : BufTy).Contents (Elt Ideal)) (j : S33554432.Idx) :
    val_main_v23 (F := Ideal) x0 (ValueIdx.ix2 (j 0) 0) = Cert.Ece.binWord (x0 j) := by
  rw [val_main_v23_apply, v6_eq]
  congr 2
  funext a
  match a with
  | ⟨0, _⟩ => rfl

/-! ## Where an update lands -/

/-- The dimension numbers of the three scatters: fifteen bins, one index component per sample, one update per
    sample, no window axes. -/
abbrev sd := scatter_S15_S33554432x1_S33554432_n_0_0_1

/-- The bins' one axis is an inserted window axis: no operand axis is kept for a window. -/
theorem sd_sKept : sd.sKept = [] := by decide

/-- The window coordinate is zero on the bins' axis. -/
theorem window_eq (j : S33554432.Idx) (a : Fin S15.rank) : sd.window j a = 0 := by
  unfold ScatterDims.window
  rw [dif_neg]
  rw [sd_sKept]; exact List.not_mem_nil

/-- Sample `j` reads its one start component at row `j`, column zero of the scatter indices. -/
theorem siIdx_eq (j : S33554432.Idx) (c : Fin sd.scatterDimsToOperandDims.length) :
    sd.siIdx j c = ValueIdx.ix2 (j 0) 0 := by
  funext b
  match b with
  | ⟨0, _⟩ => rfl
  | ⟨1, _⟩ =>
    apply Fin.ext
    have h : c.val < 1 := c.isLt
    show c.val = 0
    omega

/-- The start on the bins' axis is sample `j`'s index word read signed. -/
theorem start_eq (j : S33554432.Idx) (idx : IVec S33554432x1 32) (a : Fin S15.rank) :
    sd.start j idx a = (idx (ValueIdx.ix2 (j 0) 0)).toInt := by
  unfold ScatterDims.start
  rw [dif_pos (by revert a; decide), siIdx_eq]
  rfl

/-- Sample `j`'s update lands on bin `i` exactly when its index word read signed is `i`: the start is that
    integer, the window coordinate zero, and a bin number is in range. -/
theorem resultIdx?_eq_some_iff (j : S33554432.Idx) (idx : IVec S33554432x1 32) (i : S15.Idx) :
    sd.resultIdx? j idx = some i ↔ (idx (ValueIdx.ix2 (j 0) 0)).toInt = ((i 0).val : Int) := by
  have hi : (i 0).val < 15 := (i 0).isLt
  unfold ScatterDims.resultIdx?
  simp only [start_eq, window_eq]
  constructor
  · intro h
    split at h
    · rename_i hr
      have h0 := congrFun (Option.some.inj h) 0
      have h1 := congrArg Fin.val h0
      simp only at h1
      have := hr 0
      omega
    · exact absurd h (by simp)
  · intro h
    rw [dif_pos]
    · congr 1
      funext a
      match a with
      | ⟨0, _⟩ =>
        apply Fin.ext
        show ((idx (ValueIdx.ix2 (j 0) 0)).toInt + ((0 : Nat) : Int)).toNat = (i 0).val
        omega
    · intro a
      match a with
      | ⟨0, _⟩ =>
        show 0 ≤ _ + ((0 : Nat) : Int) ∧ _ + ((0 : Nat) : Int) < ((15 : Nat) : Int)
        omega

/-! ## Words and bin numbers -/

/-- For a bin number below fifteen, the 32-bit word of that number read signed is the number. -/
theorem toInt_ofNat_bin (n : Nat) (hn : n < 15) : (BitVec.ofNat 32 n).toInt = (n : Int) := by
  have key : ∀ m : Fin 15, (BitVec.ofNat 32 m.val).toInt = (m.val : Int) := by decide
  exact key ⟨n, hn⟩

/-- A word read signed is a bin number below fifteen exactly when it is that number's word. -/
theorem toInt_eq_bin_iff (w : BitVec 32) (n : Nat) (hn : n < 15) :
    w.toInt = (n : Int) ↔ w = BitVec.ofNat 32 n := by
  constructor
  · intro h
    apply BitVec.eq_of_toInt_eq
    rw [h, toInt_ofNat_bin n hn]
  · intro h
    rw [h, toInt_ofNat_bin n hn]

/-! ## The scatter as an indicator sum -/

/-- The accumulating scatter into a zero vector of fifteen bins: bin `b` receives the sum, over all samples, of
    the sample's update times the indicator that its index word is `b`'s word. -/
theorem scatter_zero_eq (x : FVec Ideal S15 .f32) (hx : ∀ b, x b = 0)
    (idx : IVec S33554432x1 32) (upd : FVec Ideal S33554432 .f32) (b : S15.Idx) :
    Host.scatterAdd (F := Ideal) (φ := .f32) sd x idx upd b
      = ∑ j : S33554432.Idx, Cert.Ece.ind (idx (ValueIdx.ix2 (j 0) 0)) (BitVec.ofNat 32 (b 0).val) * upd j := by
  have hb : (b 0).val < 15 := (b 0).isLt
  show Ideal.hostScatterAdd sd x idx upd b = _
  unfold Ideal.hostScatterAdd
  rw [hx, zero_add, Finset.sum_filter]
  apply Finset.sum_congr rfl
  intro j _
  by_cases h : idx (ValueIdx.ix2 (j 0) 0) = BitVec.ofNat 32 (b 0).val
  · rw [if_pos ((resultIdx?_eq_some_iff j idx b).2 ((toInt_eq_bin_iff _ _ hb).2 h))]
    unfold Cert.Ece.ind
    rw [if_pos h, one_mul]
  · rw [if_neg (fun hr => h ((toInt_eq_bin_iff _ _ hb).1 ((resultIdx?_eq_some_iff j idx b).1 hr)))]
    unfold Cert.Ece.ind
    rw [if_neg h, zero_mul]

/-! ## The three totals -/

/-- The reference's count of bin `b` is the count total of `b`'s word. -/
theorem ref_cnt (x0 : (⟨S33554432, .f32⟩ : BufTy).Contents (Elt Ideal)) (b : S15.Idx) :
    val_main_v15 (F := Ideal) x0 b = Cert.Ece.cntTot x0 (BitVec.ofNat 32 (b 0).val) := by
  unfold val_main_v15
  rw [scatter_zero_eq _ v13_eq]
  unfold Cert.Ece.cntTot Cert.Ece.cntTerm
  apply Finset.sum_congr rfl
  intro e _
  rw [v14_eq, v12_eq]

/-- The reference's confidence sum of bin `b` is the confidence total of `b`'s word. -/
theorem ref_conf (x0 : (⟨S33554432, .f32⟩ : BufTy).Contents (Elt Ideal)) (b : S15.Idx) :
    val_main_v19 (F := Ideal) x0 b = Cert.Ece.confTot x0 (BitVec.ofNat 32 (b 0).val) := by
  unfold val_main_v19
  rw [scatter_zero_eq _ v17_eq]
  unfold Cert.Ece.confTot Cert.Ece.cntTerm
  apply Finset.sum_congr rfl
  intro e _
  rw [v18_eq, v16_eq, mul_comm (x0 e), mul_assoc]

/-- The reference's label sum of bin `b` is the label total of `b`'s word. -/
theorem ref_acc (x0 : (⟨S33554432, .f32⟩ : BufTy).Contents (Elt Ideal))
    (x1 : (⟨S33554432, .i32⟩ : BufTy).Contents (Elt Ideal)) (b : S15.Idx) :
    val_main_v24 (F := Ideal) x0 x1 b = Cert.Ece.accTot x0 x1 (BitVec.ofNat 32 (b 0).val) := by
  unfold val_main_v24
  rw [scatter_zero_eq _ v22_eq]
  unfold Cert.Ece.accTot Cert.Ece.cntTerm
  apply Finset.sum_congr rfl
  intro e _
  rw [v23_eq, v21_eq, mul_comm (Cert.Ece.label (x1 e)), mul_assoc]

end Cert.Ece.Ref

end
-- ==== Proof.LaneSums.lean ====
/-
  The three lane vectors one grid point adds to the kernel's accumulators, read lane by lane.

  At a grid point the body holds a block of 4096 x 128 confidences and labels.  For each bin `k` of the fifteen it
  sums, over the whole block, the indicator of bin `k` times the weight (and that times the confidence, and times
  the label), and adds the sum into lane `k` of a 128-lane vector through the lane's own indicator.  So lane `l`,
  for `l < 15`, of each of the three vectors is the block's total for bin `l`; the chain of fifteen masked additions
  collapses because exactly one lane indicator is one.
-/
import proofs.«177050_j16947940950786_1_alg».proof.Proof.Gen.KernelIdeal.Skeleton
import proofs.«177050_j16947940950786_1_alg».proof.Proof.Bins
import Idealize.ShloMosaic.Lib.Pipeline.Value
import Idealize.ShloMosaic.PureOps.Ideal.Laws

set_option maxRecDepth 16384

noncomputable section

namespace Cert.KernelIdeal.Lanes

open Cert.KernelIdeal Cert.KernelIdeal.Gen Idealize.ShloMosaic Cert.Ece ValueIdx

variable {F : FTy → Type} [FloatOps F]

/-- What a grid point adds to the count accumulator, from its block of confidences. -/
def cntV (x0 : Vec F S4096x128 .f32) : FVec F S1x128 .f32 :=
  k0_pay90 (k0_pay12 x0) (k0_pay13 x0) (iota .tc S1x128 32 [1] iota_S1x128_d1_w32)
        (k0_pay80 (k0_pay12 x0) (k0_pay13 x0) (iota .tc S1x128 32 [1] iota_S1x128_d1_w32)
          (k0_pay69 (k0_pay13 x0) (iota .tc S1x128 32 [1] iota_S1x128_d1_w32)
            (k0_pay63 (k0_pay12 x0) (k0_pay13 x0) (iota .tc S1x128 32 [1] iota_S1x128_d1_w32)
              (k0_pay54 (k0_pay12 x0) (k0_pay13 x0) (iota .tc S1x128 32 [1] iota_S1x128_d1_w32)
                (k0_pay51 (k0_pay12 x0) (k0_pay13 x0) (iota .tc S1x128 32 [1] iota_S1x128_d1_w32)
                  (k0_pay39 (k0_pay12 x0) (k0_pay13 x0) (iota .tc S1x128 32 [1] iota_S1x128_d1_w32)
                    (k0_pay29 (k0_pay12 x0) (k0_pay13 x0) (iota .tc S1x128 32 [1] iota_S1x128_d1_w32)
                      (k0_pay24 (k0_pay12 x0) (k0_pay13 x0) (iota .tc S1x128 32 [1] iota_S1x128_d1_w32) k0_pay14
                        (k0_pay18 x0)))
                    (k0_pay33 (k0_pay12 x0) (k0_pay13 x0)))
                  (k0_pay43 (k0_pay12 x0) (k0_pay13 x0))))
              (k0_pay58 (k0_pay12 x0) (k0_pay13 x0)))
            (k0_pay66 (k0_pay12 x0)))
          (k0_pay73 (k0_pay12 x0) (k0_pay13 x0)) (k0_pay76 (iota .tc S1x128 32 [1] iota_S1x128_d1_w32)))
        (k0_pay84 (k0_pay12 x0) (k0_pay13 x0))

/-- What a grid point adds to the confidence accumulator. -/
def confV (x0 : Vec F S4096x128 .f32) : FVec F S1x128 .f32 :=
  k0_pay91 (k0_pay10 x0) (k0_pay12 x0) (k0_pay13 x0) (iota .tc S1x128 32 [1] iota_S1x128_d1_w32)
        (k0_pay81 (k0_pay10 x0) (k0_pay12 x0) (k0_pay13 x0) (iota .tc S1x128 32 [1] iota_S1x128_d1_w32)
          (k0_pay70 (k0_pay10 x0) (k0_pay13 x0) (iota .tc S1x128 32 [1] iota_S1x128_d1_w32)
            (k0_pay64 (k0_pay10 x0) (k0_pay12 x0) (k0_pay13 x0) (iota .tc S1x128 32 [1] iota_S1x128_d1_w32)
              (k0_pay55 (k0_pay10 x0) (k0_pay12 x0) (k0_pay13 x0) (iota .tc S1x128 32 [1] iota_S1x128_d1_w32)
                (k0_pay45 (k0_pay10 x0) (iota .tc S1x128 32 [1] iota_S1x128_d1_w32)
                  (k0_pay40 (k0_pay10 x0) (k0_pay12 x0) (k0_pay13 x0) (iota .tc S1x128 32 [1] iota_S1x128_d1_w32)
                    (k0_pay30 (k0_pay10 x0) (k0_pay12 x0) (k0_pay13 x0) (iota .tc S1x128 32 [1] iota_S1x128_d1_w32)
                      (k0_pay25 (k0_pay10 x0) (k0_pay12 x0) (k0_pay13 x0)
                        (iota .tc S1x128 32 [1] iota_S1x128_d1_w32) k0_pay15 (k0_pay19 x0)))
                    (k0_pay34 (k0_pay10 x0) (k0_pay12 x0) (k0_pay13 x0)))
                  (k0_pay42 (k0_pay12 x0) (k0_pay13 x0)))
                (k0_pay48 (k0_pay10 x0) (k0_pay12 x0) (k0_pay13 x0))
                (k0_pay50 (iota .tc S1x128 32 [1] iota_S1x128_d1_w32)))
              (k0_pay59 (k0_pay10 x0) (k0_pay12 x0) (k0_pay13 x0)))
            (k0_pay66 (k0_pay12 x0)))
          (k0_pay74 (k0_pay10 x0) (k0_pay12 x0) (k0_pay13 x0))
          (k0_pay76 (iota .tc S1x128 32 [1] iota_S1x128_d1_w32)))
        (k0_pay85 (k0_pay10 x0) (k0_pay12 x0) (k0_pay13 x0))

/-- What a grid point adds to the label accumulator, from its blocks of confidences and labels. -/
def accV (x0 : Vec F S4096x128 .f32) (x1 : Vec F S4096x128 .i32) : FVec F S1x128 .f32 :=
  addf (k0_pay87 (k0_pay11 x1) (iota .tc S1x128 32 [1] iota_S1x128_d1_w32)
        (k0_pay82 (k0_pay11 x1) (k0_pay12 x0) (k0_pay13 x0) (iota .tc S1x128 32 [1] iota_S1x128_d1_w32)
          (k0_pay71 (k0_pay11 x1) (k0_pay13 x0) (iota .tc S1x128 32 [1] iota_S1x128_d1_w32)
            (k0_pay65 (k0_pay11 x1) (k0_pay12 x0) (k0_pay13 x0) (iota .tc S1x128 32 [1] iota_S1x128_d1_w32)
              (k0_pay56 (k0_pay11 x1) (k0_pay12 x0) (k0_pay13 x0) (iota .tc S1x128 32 [1] iota_S1x128_d1_w32)
                (k0_pay46 (k0_pay11 x1) (iota .tc S1x128 32 [1] iota_S1x128_d1_w32)
                  (k0_pay41 (k0_pay11 x1) (k0_pay12 x0) (k0_pay13 x0) (iota .tc S1x128 32 [1] iota_S1x128_d1_w32)
                    (k0_pay31 (k0_pay11 x1) (k0_pay12 x0) (k0_pay13 x0) (iota .tc S1x128 32 [1] iota_S1x128_d1_w32)
                      (k0_pay21 (k0_pay11 x1) (iota .tc S1x128 32 [1] iota_S1x128_d1_w32) k0_pay16 (k0_pay17 x0))
                      (k0_pay26 (k0_pay11 x1) (k0_pay12 x0) (k0_pay13 x0)
                        (iota .tc S1x128 32 [1] iota_S1x128_d1_w32)))
                    (k0_pay35 (k0_pay11 x1) (k0_pay12 x0) (k0_pay13 x0)))
                  (k0_pay42 (k0_pay12 x0) (k0_pay13 x0)))
                (k0_pay49 (k0_pay11 x1) (k0_pay12 x0) (k0_pay13 x0))
                (k0_pay50 (iota .tc S1x128 32 [1] iota_S1x128_d1_w32)))
              (k0_pay57 (k0_pay12 x0) (k0_pay13 x0)))
            (k0_pay66 (k0_pay12 x0)))
          (k0_pay75 (k0_pay11 x1) (k0_pay12 x0) (k0_pay13 x0))
          (k0_pay76 (iota .tc S1x128 32 [1] iota_S1x128_d1_w32)))
        (k0_pay83 (k0_pay12 x0) (k0_pay13 x0)))
    (mulf (k0_pay89 (iota .tc S1x128 32 [1] iota_S1x128_d1_w32)) (k0_pay92 (k0_pay11 x1) (k0_pay12 x0) (k0_pay13 x0)))

/-! ## The block's entries, one at a time -/

theorem conf_apply (x0 : Vec Ideal S4096x128 .f32) (j : S4096x128.Idx) : k0_pay10 (F := Ideal) x0 j = x0 j := by
  unfold k0_pay10; rw [shapeCast_self]

theorem label_apply (x1 : Vec Ideal S4096x128 .i32) (j : S4096x128.Idx) :
    k0_pay11 (F := Ideal) x1 j = label (x1 j) := by
  unfold k0_pay11; rw [shapeCast_self]; rfl

theorem bin_apply (x0 : Vec Ideal S4096x128 .f32) (j : S4096x128.Idx) :
    k0_pay12 (F := Ideal) x0 j = binWord (x0 j) := by
  unfold k0_pay12 k0_pay10; rw [shapeCast_self]; rfl

theorem weight_apply (x0 : Vec Ideal S4096x128 .f32) (j : S4096x128.Idx) :
    k0_pay13 (F := Ideal) x0 j = weight (x0 j) := by
  unfold k0_pay13 k0_pay10; rw [shapeCast_self]
  exact sitofp_valid (x0 j)

/-- The block-wide sum the body takes for each bin: a reduction over both axes of the block. -/
theorem block_sum (v : FVec Ideal S4096x128 .f32) (h1 : S4096x128.ShapeCasts S1x4096x128)
    (h2 : S1x4096x128.Reduces [1, 2] S1) (hφ : FKind.Formats .f32)
    (hacc : (0x00000000#32 : BitVec 32) = 0x00000000#32) (h3 : S1.ShapeCasts S1x1x1)
    (h4 : ∀ a, (![0, 0, 0] : Fin 3 → Nat) a < S1x1x1.size a) :
    extractAt ![0, 0, 0] (shapeCast S1x1x1 (multiReduction .add [1, 2] S1
      (shapeCast S1x4096x128 v h1) 0x00000000#32 h2 hφ hacc) h3) h4 = ∑ j : S4096x128.Idx, v j := by
  refine (Ideal.multiReduction_add_total (shapeCast S1x4096x128 v h1) 0x00000000#32 h2 (by decide) hφ hacc _).trans ?_
  exact Equiv.sum_comp (Shape.reshapeEquiv h1) v

/-! ## The same three vectors, written as what they are -/

/-- The block-wide sum of a 4096 x 128 vector, as the body takes it. -/
def bsum (v : FVec F S4096x128 .f32) : F .f32 :=
  extractAt ![0, 0, 0] (shapeCast S1x1x1 (multiReduction .add [1, 2] S1
    (shapeCast S1x4096x128 v shapeCasts_S4096x128_S1x4096x128) 0x00000000#32 reduces_S1x4096x128_S1 (.inl rfl) rfl)
    shapeCasts_S1_S1x1x1) inpos_S1x1x1_p0_0_0

/-- Lane `k`'s indicator along the 128 lanes. -/
def oh (k : BitVec 32) : FVec F S1x128 .f32 :=
  sitofp .f32 (extui 32 (cmpi .eq (iota .tc S1x128 32 [1] iota_S1x128_d1_w32) (broadcast S1x128 k)) natLt_1_32)

/-- Bin `k`'s indicator over the block, times the weight. -/
def maskv (k : BitVec 32) (x0 : Vec F S4096x128 .f32) : FVec F S4096x128 .f32 :=
  mulf (sitofp .f32 (extui 32 (cmpi .eq (k0_pay12 x0) (broadcast S4096x128 k)) natLt_1_32)) (k0_pay13 x0)

/-- Fifteen masked additions into a lane vector, bins 0 to 14 in turn. -/
def chain15 (z : FVec F S1x128 .f32) (T : BitVec 32 → F .f32) : FVec F S1x128 .f32 :=
  addf (addf (addf (addf (addf (addf (addf (addf (addf (addf (addf (addf (addf (addf (addf (z) (mulf (oh (F := F) 0#32) (broadcast S1x128 (T 0#32)))) (mulf (oh (F := F) 1#32) (broadcast S1x128 (T 1#32)))) (mulf (oh (F := F) 2#32) (broadcast S1x128 (T 2#32)))) (mulf (oh (F := F) 3#32) (broadcast S1x128 (T 3#32)))) (mulf (oh (F := F) 4#32) (broadcast S1x128 (T 4#32)))) (mulf (oh (F := F) 5#32) (broadcast S1x128 (T 5#32)))) (mulf (oh (F := F) 6#32) (broadcast S1x128 (T 6#32)))) (mulf (oh (F := F) 7#32) (broadcast S1x128 (T 7#32)))) (mulf (oh (F := F) 8#32) (broadcast S1x128 (T 8#32)))) (mulf (oh (F := F) 9#32) (broadcast S1x128 (T 9#32)))) (mulf (oh (F := F) 10#32) (broadcast S1x128 (T 10#32)))) (mulf (oh (F := F) 11#32) (broadcast S1x128 (T 11#32)))) (mulf (oh (F := F) 12#32) (broadcast S1x128 (T 12#32)))) (mulf (oh (F := F) 13#32) (broadcast S1x128 (T 13#32)))) (mulf (oh (F := F) 14#32) (broadcast S1x128 (T 14#32)))

theorem cntV_eq (x0 : Vec F S4096x128 .f32) :
    cntV x0 = chain15 k0_pay14 (fun k => bsum (maskv k x0)) := rfl

theorem confV_eq (x0 : Vec F S4096x128 .f32) :
    confV x0 = chain15 k0_pay15 (fun k => bsum (mulf (maskv k x0) (k0_pay10 x0))) := rfl

theorem accV_eq (x0 : Vec F S4096x128 .f32) (x1 : Vec F S4096x128 .i32) :
    accV x0 x1 = chain15 k0_pay16 (fun k => bsum (mulf (maskv k x0) (k0_pay11 x1))) := rfl

/-! ## Read at the ideal instance -/

theorem bsum_eq (v : FVec Ideal S4096x128 .f32) : bsum (F := Ideal) v = ∑ j : S4096x128.Idx, v j :=
  block_sum v _ _ _ rfl _ _

theorem oh_apply (k : BitVec 32) (a : Fin 1) (l : Fin 128) :
    oh (F := Ideal) k (ix2 a l) = ind (BitVec.ofNat 32 l.val) k := by
  show FloatOps.sitofp (F := Ideal) .f32
      ((IntOp.cmpi .eq (iota .tc S1x128 32 [1] iota_S1x128_d1_w32 (ix2 a l)) k).setWidth 32) = _
  rw [iota_single_apply, sitofp_cmpi_eq]

theorem maskv_apply (k : BitVec 32) (x0 : Vec Ideal S4096x128 .f32) (j : S4096x128.Idx) :
    maskv (F := Ideal) k x0 j = cntTerm k (x0 j) := by
  show FloatOps.mulf (FloatOps.sitofp (F := Ideal) .f32 ((IntOp.cmpi .eq (k0_pay12 (F := Ideal) x0 j) k).setWidth 32))
      (k0_pay13 (F := Ideal) x0 j) = _
  rw [sitofp_cmpi_eq, bin_apply, weight_apply]; rfl

/-- Adding `ind l k · T k` for `k = 0, …, 14` in turn, from zero, leaves `T l` when `l < 15`: exactly one indicator is
    one. -/
theorem lane_chain (T : BitVec 32 → EReal) (n : ℕ) (hn : n < 15) :
    0 + ind (BitVec.ofNat 32 n) 0#32 * T 0#32 + ind (BitVec.ofNat 32 n) 1#32 * T 1#32
      + ind (BitVec.ofNat 32 n) 2#32 * T 2#32 + ind (BitVec.ofNat 32 n) 3#32 * T 3#32
      + ind (BitVec.ofNat 32 n) 4#32 * T 4#32 + ind (BitVec.ofNat 32 n) 5#32 * T 5#32
      + ind (BitVec.ofNat 32 n) 6#32 * T 6#32 + ind (BitVec.ofNat 32 n) 7#32 * T 7#32
      + ind (BitVec.ofNat 32 n) 8#32 * T 8#32 + ind (BitVec.ofNat 32 n) 9#32 * T 9#32
      + ind (BitVec.ofNat 32 n) 10#32 * T 10#32 + ind (BitVec.ofNat 32 n) 11#32 * T 11#32
      + ind (BitVec.ofNat 32 n) 12#32 * T 12#32 + ind (BitVec.ofNat 32 n) 13#32 * T 13#32
      + ind (BitVec.ofNat 32 n) 14#32 * T 14#32 = T (BitVec.ofNat 32 n) := by
  interval_cases n <;> simp [ind]

/-- Lane `l < 15` of the chain over a zero start is bin `l`'s total. -/
theorem chain15_lane (z : FVec Ideal S1x128 .f32) (T : BitVec 32 → EReal) (a : Fin 1) (l : Fin 128) (hl : l.val < 15)
    (hz : z (ix2 a l) = 0) : chain15 (F := Ideal) z T (ix2 a l) = T (BitVec.ofNat 32 l.val) := by
  unfold chain15
  simp only [addf_apply, mulf_apply, broadcast_apply, oh_apply, hz]
  exact lane_chain T l.val hl

theorem zero14 (j : S1x128.Idx) : k0_pay14 (F := Ideal) j = 0 := Ideal.ofBits_zero_f32
theorem zero15 (j : S1x128.Idx) : k0_pay15 (F := Ideal) j = 0 := Ideal.ofBits_zero_f32
theorem zero16 (j : S1x128.Idx) : k0_pay16 (F := Ideal) j = 0 := Ideal.ofBits_zero_f32

/-- Lane `l < 15` of the count vector is the block's count for bin `l`. -/
theorem cnt_lane (x0 : Vec Ideal S4096x128 .f32) (a : Fin 1) (l : Fin 128) (hl : l.val < 15) :
    cntV (F := Ideal) x0 (ix2 a l) = ∑ j : S4096x128.Idx, cntTerm (BitVec.ofNat 32 l.val) (x0 j) := by
  rw [cntV_eq, chain15_lane _ _ a l hl (zero14 _), bsum_eq]
  exact Finset.sum_congr rfl fun j _ => maskv_apply _ x0 j

/-- Lane `l < 15` of the confidence vector is the block's confidence total for bin `l`. -/
theorem conf_lane (x0 : Vec Ideal S4096x128 .f32) (a : Fin 1) (l : Fin 128) (hl : l.val < 15) :
    confV (F := Ideal) x0 (ix2 a l) = ∑ j : S4096x128.Idx, cntTerm (BitVec.ofNat 32 l.val) (x0 j) * x0 j := by
  rw [confV_eq, chain15_lane _ _ a l hl (zero15 _), bsum_eq]
  refine Finset.sum_congr rfl fun j _ => ?_
  rw [mulf_apply, maskv_apply, conf_apply]

/-- Lane `l < 15` of the label vector is the block's label total for bin `l`. -/
theorem acc_lane (x0 : Vec Ideal S4096x128 .f32) (x1 : Vec Ideal S4096x128 .i32) (a : Fin 1) (l : Fin 128)
    (hl : l.val < 15) :
    accV (F := Ideal) x0 x1 (ix2 a l) = ∑ j : S4096x128.Idx, cntTerm (BitVec.ofNat 32 l.val) (x0 j) * label (x1 j) := by
  rw [accV_eq, chain15_lane _ _ a l hl (zero16 _), bsum_eq]
  refine Finset.sum_congr rfl fun j _ => ?_
  rw [mulf_apply, maskv_apply, label_apply]

end Cert.KernelIdeal.Lanes

end
-- ==== Proof.Carry.lean ====
/-
  What the kernel's three accumulators hold, grid point by grid point.

  The grid is two runs of 32 points.  At a run's first point the body stores zero into each accumulator and adds the
  point's lane vector; at every later point it adds the point's lane vector to what the point before left; at the
  run's last point it also copies each accumulator, with a unit axis added, into the output block.  So after the last
  point of a run each output block holds zero plus the sum of the run's 32 lane vectors.
-/
import proofs.«177050_j16947940950786_1_alg».proof.Proof.Gen.KernelIdeal.Frame
import proofs.«177050_j16947940950786_1_alg».proof.Proof.LaneSums
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Carry

open Cert.KernelIdeal Cert.KernelIdeal.Gen Cert.KernelIdeal.Lanes

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The zero lane vector a run's first point stores. -/
abbrev zeroV : Vec F S1x128 .f32 := broadcast S1x128 (Scalar.ofBits .f32 0x00000000#32)

/-! ## One point: what each case leaves in each accumulator and output block -/

theorem scratch0_A (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S4096x128 .f32) (x1 : Vec F S4096x128 .i32) :
    sout0_A_0 c i arg2 harg2 arg3 harg3 arg4 harg4 arg5 harg5 arg6 harg6 arg7 harg7 arg8 harg8 arg9 harg9 hc0 hc1 x0 x1 = addf zeroV (cntV x0) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x128) hz2, View.readCov_unit_zero (S := S1x128) _ hz2]
  simp only [View.readAt_eq_ld, harg7.read_unread, harg8.read_unread, harg9.read_unread, harg2.read_unread, harg3.read_unread,
    View.ld_unit_zero (S := S1x128) hz2, View.ld_unit_zero (S := S4096x128) hz2]
  unfold k0_pay1 k0_pay7 cntV zeroV
  simp only [shapeCast_self]

theorem scratch1_A (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S4096x128 .f32) (x1 : Vec F S4096x128 .i32) :
    sout0_A_1 c i arg2 harg2 arg3 harg3 arg4 harg4 arg5 harg5 arg6 harg6 arg7 harg7 arg8 harg8 arg9 harg9 hc0 hc1 x0 x1 = addf zeroV (confV x0) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x128) hz2, View.readCov_unit_zero (S := S1x128) _ hz2]
  simp only [View.readAt_eq_ld, harg7.read_unread, harg8.read_unread, harg9.read_unread, harg2.read_unread, harg3.read_unread,
    View.ld_unit_zero (S := S1x128) hz2, View.ld_unit_zero (S := S4096x128) hz2]
  unfold k0_pay2 k0_pay8 confV zeroV
  simp only [shapeCast_self]

theorem scratch2_A (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S4096x128 .f32) (x1 : Vec F S4096x128 .i32) :
    sout0_A_2 c i arg2 harg2 arg3 harg3 arg4 harg4 arg5 harg5 arg6 harg6 arg7 harg7 arg8 harg8 arg9 harg9 hc0 hc1 x0 x1 = addf zeroV (accV x0 x1) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x128) hz2, View.readCov_unit_zero (S := S1x128) _ hz2]
  simp only [View.readAt_eq_ld, harg7.read_unread, harg8.read_unread, harg9.read_unread, harg2.read_unread, harg3.read_unread,
    View.ld_unit_zero (S := S1x128) hz2, View.ld_unit_zero (S := S4096x128) hz2]
  unfold k0_pay3 k0_pay9 accV zeroV
  simp only [shapeCast_self]

theorem scratch0_B (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S4096x128 .f32) (x1 : Vec F S4096x128 .i32) (xs0 xs1 xs2 : Vec F S1x128 .f32) :
    sout0_B_0 c i arg2 harg2 arg3 harg3 arg4 harg4 arg5 harg5 arg6 harg6 arg7 harg7 arg8 harg8 arg9 harg9 hc0 hc1 x0 x1 xs0 xs1 xs2 = addf xs0 (cntV x0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz2]
  simp only [View.readAt_eq_ld, harg7.read_unread, harg8.read_unread, harg9.read_unread, harg2.read_unread, harg3.read_unread,
    View.ld_unit_zero (S := S1x128) hz2, View.ld_unit_zero (S := S4096x128) hz2]
  unfold k0_pay1 cntV
  simp only [shapeCast_self]

theorem scratch1_B (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S4096x128 .f32) (x1 : Vec F S4096x128 .i32) (xs0 xs1 xs2 : Vec F S1x128 .f32) :
    sout0_B_1 c i arg2 harg2 arg3 harg3 arg4 harg4 arg5 harg5 arg6 harg6 arg7 harg7 arg8 harg8 arg9 harg9 hc0 hc1 x0 x1 xs0 xs1 xs2 = addf xs1 (confV x0) := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz2]
  simp only [View.readAt_eq_ld, harg7.read_unread, harg8.read_unread, harg9.read_unread, harg2.read_unread, harg3.read_unread,
    View.ld_unit_zero (S := S1x128) hz2, View.ld_unit_zero (S := S4096x128) hz2]
  unfold k0_pay2 confV
  simp only [shapeCast_self]

theorem scratch2_B (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S4096x128 .f32) (x1 : Vec F S4096x128 .i32) (xs0 xs1 xs2 : Vec F S1x128 .f32) :
    sout0_B_2 c i arg2 harg2 arg3 harg3 arg4 harg4 arg5 harg5 arg6 harg6 arg7 harg7 arg8 harg8 arg9 harg9 hc0 hc1 x0 x1 xs0 xs1 xs2 = addf xs2 (accV x0 x1) := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz2]
  simp only [View.readAt_eq_ld, harg7.read_unread, harg8.read_unread, harg9.read_unread, harg2.read_unread, harg3.read_unread,
    View.ld_unit_zero (S := S1x128) hz2, View.ld_unit_zero (S := S4096x128) hz2]
  unfold k0_pay3 accV
  simp only [shapeCast_self]

theorem scratch0_C (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S4096x128 .f32) (x1 : Vec F S4096x128 .i32) (xs0 xs1 xs2 : Vec F S1x128 .f32) :
    sout0_C_0 c i arg2 harg2 arg3 harg3 arg4 harg4 arg5 harg5 arg6 harg6 arg7 harg7 arg8 harg8 arg9 harg9 hc0 hc1 x0 x1 xs0 xs1 xs2 = addf xs0 (cntV x0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz2]
  simp only [View.readAt_eq_ld, harg7.read_unread, harg8.read_unread, harg9.read_unread, harg2.read_unread, harg3.read_unread,
    View.ld_unit_zero (S := S1x128) hz2, View.ld_unit_zero (S := S4096x128) hz2]
  unfold k0_pay1 cntV
  simp only [shapeCast_self]

theorem scratch1_C (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S4096x128 .f32) (x1 : Vec F S4096x128 .i32) (xs0 xs1 xs2 : Vec F S1x128 .f32) :
    sout0_C_1 c i arg2 harg2 arg3 harg3 arg4 harg4 arg5 harg5 arg6 harg6 arg7 harg7 arg8 harg8 arg9 harg9 hc0 hc1 x0 x1 xs0 xs1 xs2 = addf xs1 (confV x0) := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz2]
  simp only [View.readAt_eq_ld, harg7.read_unread, harg8.read_unread, harg9.read_unread, harg2.read_unread, harg3.read_unread,
    View.ld_unit_zero (S := S1x128) hz2, View.ld_unit_zero (S := S4096x128) hz2]
  unfold k0_pay2 confV
  simp only [shapeCast_self]

theorem scratch2_C (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S4096x128 .f32) (x1 : Vec F S4096x128 .i32) (xs0 xs1 xs2 : Vec F S1x128 .f32) :
    sout0_C_2 c i arg2 harg2 arg3 harg3 arg4 harg4 arg5 harg5 arg6 harg6 arg7 harg7 arg8 harg8 arg9 harg9 hc0 hc1 x0 x1 xs0 xs1 xs2 = addf xs2 (accV x0 x1) := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz2]
  simp only [View.readAt_eq_ld, harg7.read_unread, harg8.read_unread, harg9.read_unread, harg2.read_unread, harg3.read_unread,
    View.ld_unit_zero (S := S1x128) hz2, View.ld_unit_zero (S := S4096x128) hz2]
  unfold k0_pay3 accV
  simp only [shapeCast_self]

theorem out2_C (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S4096x128 .f32) (x1 : Vec F S4096x128 .i32) (xs0 xs1 xs2 : Vec F S1x128 .f32) :
    out0_C_2 c i arg2 harg2 arg3 harg3 arg4 harg4 arg5 harg5 arg6 harg6 arg7 harg7 arg8 harg8 arg9 harg9 hc0 hc1 x0 x1 xs0 xs1 xs2 = shapeCast S1x1x128 (addf xs0 (cntV x0)) shapeCasts_S1x128_S1x1x128 := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3]
  simp only [View.readAt_eq_ld, harg7.read_unread, harg8.read_unread, harg9.read_unread, harg2.read_unread, harg3.read_unread,
    View.ld_unit_zero (S := S1x128) hz2, View.ld_unit_zero (S := S4096x128) hz2, View.readCov_unit_zero (S := S1x128) _ hz2]
  unfold k0_pay4 k0_pay1 cntV
  simp only [shapeCast_self]

theorem out3_C (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S4096x128 .f32) (x1 : Vec F S4096x128 .i32) (xs0 xs1 xs2 : Vec F S1x128 .f32) :
    out0_C_3 c i arg2 harg2 arg3 harg3 arg4 harg4 arg5 harg5 arg6 harg6 arg7 harg7 arg8 harg8 arg9 harg9 hc0 hc1 x0 x1 xs0 xs1 xs2 = shapeCast S1x1x128 (addf xs1 (confV x0)) shapeCasts_S1x128_S1x1x128 := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3]
  simp only [View.readAt_eq_ld, harg7.read_unread, harg8.read_unread, harg9.read_unread, harg2.read_unread, harg3.read_unread,
    View.ld_unit_zero (S := S1x128) hz2, View.ld_unit_zero (S := S4096x128) hz2, View.readCov_unit_zero (S := S1x128) _ hz2]
  unfold k0_pay5 k0_pay2 confV
  simp only [shapeCast_self]

theorem out4_C (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S4096x128 .f32) (x1 : Vec F S4096x128 .i32) (xs0 xs1 xs2 : Vec F S1x128 .f32) :
    out0_C_4 c i arg2 harg2 arg3 harg3 arg4 harg4 arg5 harg5 arg6 harg6 arg7 harg7 arg8 harg8 arg9 harg9 hc0 hc1 x0 x1 xs0 xs1 xs2 = shapeCast S1x1x128 (addf xs2 (accV x0 x1)) shapeCasts_S1x128_S1x1x128 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3]
  simp only [View.readAt_eq_ld, harg7.read_unread, harg8.read_unread, harg9.read_unread, harg2.read_unread, harg3.read_unread,
    View.ld_unit_zero (S := S1x128) hz2, View.ld_unit_zero (S := S4096x128) hz2, View.readCov_unit_zero (S := S1x128) _ hz2]
  unfold k0_pay6 k0_pay3 accV
  simp only [shapeCast_self]

end Cert.KernelIdeal.Carry

end
-- ==== Proof.Fold.lean ====
/-
  The run of grid points: what the three accumulators hold after each point, and what the output blocks receive.
-/
import proofs.«177050_j16947940950786_1_alg».proof.Proof.Carry

set_option maxRecDepth 16384

noncomputable section

open Idealize.ShloMosaic Idealize.ShloMosaic.TcCoe Idealize.SL.Sem
open Idealize.ShloMosaic.Pipeline (Dat)

namespace Cert.KernelIdeal.Carry

open Cert.KernelIdeal Cert.KernelIdeal.Gen Cert.KernelIdeal.Lanes

/-- A quantity that is `0 + M n` at the first point of each run of 32 and grows by `M n` at every other point is, at
    any point, zero plus the sum of `M` over its run so far. -/
theorem run_sum {N : ℕ} (f : (n : ℕ) → n < N → EReal) (M : ℕ → EReal)
    (h0 : ∀ n h, n % 32 = 0 → f n h = 0 + M n)
    (hs : ∀ n (h : n + 1 < N), ¬ (n + 1) % 32 = 0 → f (n + 1) h = f n (Nat.lt_of_succ_lt h) + M (n + 1)) :
    ∀ t (ht : t < N), f t ht = 0 + ∑ s ∈ Finset.range (t % 32 + 1), M (32 * (t / 32) + s)
  | 0, ht => by rw [h0 0 ht rfl]; simp
  | t + 1, ht => by
    by_cases hz : (t + 1) % 32 = 0
    · rw [h0 _ ht hz, hz, Finset.sum_range_one]
      have e : 32 * ((t + 1) / 32) + 0 = t + 1 := by omega
      rw [e]
    · have e1 : (t + 1) % 32 = t % 32 + 1 := by omega
      have e2 : (t + 1) / 32 = t / 32 := by omega
      have e3 : 32 * (t / 32) + (t % 32 + 1) = t + 1 := by omega
      rw [hs t ht hz, run_sum f M h0 hs t (Nat.lt_of_succ_lt ht), e1, e2, Finset.sum_range_succ _ (t % 32 + 1), e3,
        add_assoc]

theorem zeroV_apply (y : S1x128.Idx) : zeroV (F := Ideal) y = 0 := Ideal.ofBits_zero_f32

section Fold

variable (m : (ℓ : Loc nD τ sig) → Buf (Elt Ideal) ℓ)

/-- The block of confidences point `t` works on. -/
abbrev pblk (c : Dev nD) (t : Fin cfg0.N) : Vec Ideal S4096x128 .f32 := iblk m c 0 t
/-- The block of labels point `t` works on. -/
abbrev lblk (c : Dev nD) (t : Fin cfg0.N) : Vec Ideal S4096x128 .i32 := iblk m c 1 t

/-- What point `n` adds to accumulator 0 (zero past the grid). -/
def addend0 (c : Dev nD) (n : ℕ) : S1x128.Idx → EReal :=
  fun y => if h : n < cfg0.N then cntV (F := Ideal) (pblk m c ⟨n, h⟩) y else 0

theorem sc0_reset (c : Dev nD) (n : ℕ) (h : n < cfg0.N) (h0 : n % 32 = 0) :
    (outsAt0 m c n h).2.2.2.1 = addf zeroV (cntV (F := Ideal) (pblk m c ⟨n, h⟩)) := by
  have h1 : ¬ n % 32 = 31 := by omega
  have e := outsAt0_A m c (⟨n, h⟩ : Fin cfg0.N) h0 h1
  rw [e]
  exact scratch0_A (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) ((hcond0_0 (⟨n, h⟩ : Fin cfg0.N)).mpr h0) (fun h' => h1 ((hcond0_1 (⟨n, h⟩ : Fin cfg0.N)).mp h')) (iblk m c 0 (⟨n, h⟩ : Fin cfg0.N)) (iblk m c 1 (⟨n, h⟩ : Fin cfg0.N))

theorem sc0_step (c : Dev nD) (n : ℕ) (h : n + 1 < cfg0.N) (h0 : ¬ (n + 1) % 32 = 0) :
    (outsAt0 m c (n + 1) h).2.2.2.1 = addf ((outsAt0 m c n (Nat.lt_of_succ_lt h)).2.2.2.1) (cntV (F := Ideal) (pblk m c ⟨n + 1, h⟩)) := by
  by_cases h1 : (n + 1) % 32 = 31
  · have e := outsAt0_C m c (⟨n + 1, h⟩ : Fin cfg0.N) h0 h1
    rw [e]
    exact scratch0_C (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) (fun h' => h0 ((hcond0_0 (⟨n + 1, h⟩ : Fin cfg0.N)).mp h')) ((hcond0_1 (⟨n + 1, h⟩ : Fin cfg0.N)).mpr h1) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2.1 (outsAt0 m c ((⟨n + 1, h⟩ : Fin cfg0.N).val - 1) (Nat.lt_of_le_of_lt (Nat.sub_le _ _) (⟨n + 1, h⟩ : Fin cfg0.N).isLt)).2.2.2.2.2
  · have e := outsAt0_B m c (⟨n + 1, h⟩ : Fin cfg0.N) h0 h1
    rw [e]
    exact scratch0_B (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) (fun h' => h0 ((hcond0_0 (⟨n + 1, h⟩ : Fin cfg0.N)).mp h')) (fun h' => h1 ((hcond0_1 (⟨n + 1, h⟩ : Fin cfg0.N)).mp h')) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2.1 (outsAt0 m c ((⟨n + 1, h⟩ : Fin cfg0.N).val - 1) (Nat.lt_of_le_of_lt (Nat.sub_le _ _) (⟨n + 1, h⟩ : Fin cfg0.N).isLt)).2.2.2.2.2

/-- At a run's last point the output block is accumulator 0 with a unit axis added. -/
theorem out2_eq (c : Dev nD) (t : ℕ) (ht : t < cfg0.N) (h31 : t % 32 = 31) :
    (outsAt0 m c t ht).1 = shapeCast S1x1x128 ((outsAt0 m c t ht).2.2.2.1) shapeCasts_S1x128_S1x1x128 := by
  have h0 : ¬ t % 32 = 0 := by omega
  have e := outsAt0_C m c (⟨t, ht⟩ : Fin cfg0.N) h0 h31
  rw [e]
  dsimp only
  rw [out2_C (F := Ideal) c (grid0.coords (⟨t, ht⟩ : Fin cfg0.N)) (ms0_0 (⟨t, ht⟩ : Fin cfg0.N)) (hs0_0 (⟨t, ht⟩ : Fin cfg0.N)) (ms0_1 (⟨t, ht⟩ : Fin cfg0.N)) (hs0_1 (⟨t, ht⟩ : Fin cfg0.N)) (ms0_2 (⟨t, ht⟩ : Fin cfg0.N)) (hs0_2 (⟨t, ht⟩ : Fin cfg0.N)) (ms0_3 (⟨t, ht⟩ : Fin cfg0.N)) (hs0_3 (⟨t, ht⟩ : Fin cfg0.N)) (ms0_4 (⟨t, ht⟩ : Fin cfg0.N)) (hs0_4 (⟨t, ht⟩ : Fin cfg0.N)) scM0_0 (Memref.isWhole_whole _) scM0_1 (Memref.isWhole_whole _) scM0_2 (Memref.isWhole_whole _) (fun h' => h0 ((hcond0_0 (⟨t, ht⟩ : Fin cfg0.N)).mp h')) ((hcond0_1 (⟨t, ht⟩ : Fin cfg0.N)).mpr h31) (iblk m c 0 (⟨t, ht⟩ : Fin cfg0.N)) (iblk m c 1 (⟨t, ht⟩ : Fin cfg0.N)) (outsAt0 m c ((⟨t, ht⟩ : Fin cfg0.N).val - 1) (Nat.lt_of_le_of_lt (Nat.sub_le _ _) (⟨t, ht⟩ : Fin cfg0.N).isLt)).2.2.2.1 (outsAt0 m c ((⟨t, ht⟩ : Fin cfg0.N).val - 1) (Nat.lt_of_le_of_lt (Nat.sub_le _ _) (⟨t, ht⟩ : Fin cfg0.N).isLt)).2.2.2.2.1 (outsAt0 m c ((⟨t, ht⟩ : Fin cfg0.N).val - 1) (Nat.lt_of_le_of_lt (Nat.sub_le _ _) (⟨t, ht⟩ : Fin cfg0.N).isLt)).2.2.2.2.2,
    scratch0_C (F := Ideal) c (grid0.coords (⟨t, ht⟩ : Fin cfg0.N)) (ms0_0 (⟨t, ht⟩ : Fin cfg0.N)) (hs0_0 (⟨t, ht⟩ : Fin cfg0.N)) (ms0_1 (⟨t, ht⟩ : Fin cfg0.N)) (hs0_1 (⟨t, ht⟩ : Fin cfg0.N)) (ms0_2 (⟨t, ht⟩ : Fin cfg0.N)) (hs0_2 (⟨t, ht⟩ : Fin cfg0.N)) (ms0_3 (⟨t, ht⟩ : Fin cfg0.N)) (hs0_3 (⟨t, ht⟩ : Fin cfg0.N)) (ms0_4 (⟨t, ht⟩ : Fin cfg0.N)) (hs0_4 (⟨t, ht⟩ : Fin cfg0.N)) scM0_0 (Memref.isWhole_whole _) scM0_1 (Memref.isWhole_whole _) scM0_2 (Memref.isWhole_whole _) (fun h' => h0 ((hcond0_0 (⟨t, ht⟩ : Fin cfg0.N)).mp h')) ((hcond0_1 (⟨t, ht⟩ : Fin cfg0.N)).mpr h31) (iblk m c 0 (⟨t, ht⟩ : Fin cfg0.N)) (iblk m c 1 (⟨t, ht⟩ : Fin cfg0.N)) (outsAt0 m c ((⟨t, ht⟩ : Fin cfg0.N).val - 1) (Nat.lt_of_le_of_lt (Nat.sub_le _ _) (⟨t, ht⟩ : Fin cfg0.N).isLt)).2.2.2.1 (outsAt0 m c ((⟨t, ht⟩ : Fin cfg0.N).val - 1) (Nat.lt_of_le_of_lt (Nat.sub_le _ _) (⟨t, ht⟩ : Fin cfg0.N).isLt)).2.2.2.2.1 (outsAt0 m c ((⟨t, ht⟩ : Fin cfg0.N).val - 1) (Nat.lt_of_le_of_lt (Nat.sub_le _ _) (⟨t, ht⟩ : Fin cfg0.N).isLt)).2.2.2.2.2]

/-- What point `n` adds to accumulator 1 (zero past the grid). -/
def addend1 (c : Dev nD) (n : ℕ) : S1x128.Idx → EReal :=
  fun y => if h : n < cfg0.N then confV (F := Ideal) (pblk m c ⟨n, h⟩) y else 0

theorem sc1_reset (c : Dev nD) (n : ℕ) (h : n < cfg0.N) (h0 : n % 32 = 0) :
    (outsAt0 m c n h).2.2.2.2.1 = addf zeroV (confV (F := Ideal) (pblk m c ⟨n, h⟩)) := by
  have h1 : ¬ n % 32 = 31 := by omega
  have e := outsAt0_A m c (⟨n, h⟩ : Fin cfg0.N) h0 h1
  rw [e]
  exact scratch1_A (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) ((hcond0_0 (⟨n, h⟩ : Fin cfg0.N)).mpr h0) (fun h' => h1 ((hcond0_1 (⟨n, h⟩ : Fin cfg0.N)).mp h')) (iblk m c 0 (⟨n, h⟩ : Fin cfg0.N)) (iblk m c 1 (⟨n, h⟩ : Fin cfg0.N))

theorem sc1_step (c : Dev nD) (n : ℕ) (h : n + 1 < cfg0.N) (h0 : ¬ (n + 1) % 32 = 0) :
    (outsAt0 m c (n + 1) h).2.2.2.2.1 = addf ((outsAt0 m c n (Nat.lt_of_succ_lt h)).2.2.2.2.1) (confV (F := Ideal) (pblk m c ⟨n + 1, h⟩)) := by
  by_cases h1 : (n + 1) % 32 = 31
  · have e := outsAt0_C m c (⟨n + 1, h⟩ : Fin cfg0.N) h0 h1
    rw [e]
    exact scratch1_C (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) (fun h' => h0 ((hcond0_0 (⟨n + 1, h⟩ : Fin cfg0.N)).mp h')) ((hcond0_1 (⟨n + 1, h⟩ : Fin cfg0.N)).mpr h1) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2.1 (outsAt0 m c ((⟨n + 1, h⟩ : Fin cfg0.N).val - 1) (Nat.lt_of_le_of_lt (Nat.sub_le _ _) (⟨n + 1, h⟩ : Fin cfg0.N).isLt)).2.2.2.2.2
  · have e := outsAt0_B m c (⟨n + 1, h⟩ : Fin cfg0.N) h0 h1
    rw [e]
    exact scratch1_B (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) (fun h' => h0 ((hcond0_0 (⟨n + 1, h⟩ : Fin cfg0.N)).mp h')) (fun h' => h1 ((hcond0_1 (⟨n + 1, h⟩ : Fin cfg0.N)).mp h')) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2.1 (outsAt0 m c ((⟨n + 1, h⟩ : Fin cfg0.N).val - 1) (Nat.lt_of_le_of_lt (Nat.sub_le _ _) (⟨n + 1, h⟩ : Fin cfg0.N).isLt)).2.2.2.2.2

/-- At a run's last point the output block is accumulator 1 with a unit axis added. -/
theorem out3_eq (c : Dev nD) (t : ℕ) (ht : t < cfg0.N) (h31 : t % 32 = 31) :
    (outsAt0 m c t ht).2.1 = shapeCast S1x1x128 ((outsAt0 m c t ht).2.2.2.2.1) shapeCasts_S1x128_S1x1x128 := by
  have h0 : ¬ t % 32 = 0 := by omega
  have e := outsAt0_C m c (⟨t, ht⟩ : Fin cfg0.N) h0 h31
  rw [e]
  dsimp only
  rw [out3_C (F := Ideal) c (grid0.coords (⟨t, ht⟩ : Fin cfg0.N)) (ms0_0 (⟨t, ht⟩ : Fin cfg0.N)) (hs0_0 (⟨t, ht⟩ : Fin cfg0.N)) (ms0_1 (⟨t, ht⟩ : Fin cfg0.N)) (hs0_1 (⟨t, ht⟩ : Fin cfg0.N)) (ms0_2 (⟨t, ht⟩ : Fin cfg0.N)) (hs0_2 (⟨t, ht⟩ : Fin cfg0.N)) (ms0_3 (⟨t, ht⟩ : Fin cfg0.N)) (hs0_3 (⟨t, ht⟩ : Fin cfg0.N)) (ms0_4 (⟨t, ht⟩ : Fin cfg0.N)) (hs0_4 (⟨t, ht⟩ : Fin cfg0.N)) scM0_0 (Memref.isWhole_whole _) scM0_1 (Memref.isWhole_whole _) scM0_2 (Memref.isWhole_whole _) (fun h' => h0 ((hcond0_0 (⟨t, ht⟩ : Fin cfg0.N)).mp h')) ((hcond0_1 (⟨t, ht⟩ : Fin cfg0.N)).mpr h31) (iblk m c 0 (⟨t, ht⟩ : Fin cfg0.N)) (iblk m c 1 (⟨t, ht⟩ : Fin cfg0.N)) (outsAt0 m c ((⟨t, ht⟩ : Fin cfg0.N).val - 1) (Nat.lt_of_le_of_lt (Nat.sub_le _ _) (⟨t, ht⟩ : Fin cfg0.N).isLt)).2.2.2.1 (outsAt0 m c ((⟨t, ht⟩ : Fin cfg0.N).val - 1) (Nat.lt_of_le_of_lt (Nat.sub_le _ _) (⟨t, ht⟩ : Fin cfg0.N).isLt)).2.2.2.2.1 (outsAt0 m c ((⟨t, ht⟩ : Fin cfg0.N).val - 1) (Nat.lt_of_le_of_lt (Nat.sub_le _ _) (⟨t, ht⟩ : Fin cfg0.N).isLt)).2.2.2.2.2,
    scratch1_C (F := Ideal) c (grid0.coords (⟨t, ht⟩ : Fin cfg0.N)) (ms0_0 (⟨t, ht⟩ : Fin cfg0.N)) (hs0_0 (⟨t, ht⟩ : Fin cfg0.N)) (ms0_1 (⟨t, ht⟩ : Fin cfg0.N)) (hs0_1 (⟨t, ht⟩ : Fin cfg0.N)) (ms0_2 (⟨t, ht⟩ : Fin cfg0.N)) (hs0_2 (⟨t, ht⟩ : Fin cfg0.N)) (ms0_3 (⟨t, ht⟩ : Fin cfg0.N)) (hs0_3 (⟨t, ht⟩ : Fin cfg0.N)) (ms0_4 (⟨t, ht⟩ : Fin cfg0.N)) (hs0_4 (⟨t, ht⟩ : Fin cfg0.N)) scM0_0 (Memref.isWhole_whole _) scM0_1 (Memref.isWhole_whole _) scM0_2 (Memref.isWhole_whole _) (fun h' => h0 ((hcond0_0 (⟨t, ht⟩ : Fin cfg0.N)).mp h')) ((hcond0_1 (⟨t, ht⟩ : Fin cfg0.N)).mpr h31) (iblk m c 0 (⟨t, ht⟩ : Fin cfg0.N)) (iblk m c 1 (⟨t, ht⟩ : Fin cfg0.N)) (outsAt0 m c ((⟨t, ht⟩ : Fin cfg0.N).val - 1) (Nat.lt_of_le_of_lt (Nat.sub_le _ _) (⟨t, ht⟩ : Fin cfg0.N).isLt)).2.2.2.1 (outsAt0 m c ((⟨t, ht⟩ : Fin cfg0.N).val - 1) (Nat.lt_of_le_of_lt (Nat.sub_le _ _) (⟨t, ht⟩ : Fin cfg0.N).isLt)).2.2.2.2.1 (outsAt0 m c ((⟨t, ht⟩ : Fin cfg0.N).val - 1) (Nat.lt_of_le_of_lt (Nat.sub_le _ _) (⟨t, ht⟩ : Fin cfg0.N).isLt)).2.2.2.2.2]

/-- What point `n` adds to accumulator 2 (zero past the grid). -/
def addend2 (c : Dev nD) (n : ℕ) : S1x128.Idx → EReal :=
  fun y => if h : n < cfg0.N then accV (F := Ideal) (pblk m c ⟨n, h⟩) (lblk m c ⟨n, h⟩) y else 0

theorem sc2_reset (c : Dev nD) (n : ℕ) (h : n < cfg0.N) (h0 : n % 32 = 0) :
    (outsAt0 m c n h).2.2.2.2.2 = addf zeroV (accV (F := Ideal) (pblk m c ⟨n, h⟩) (lblk m c ⟨n, h⟩)) := by
  have h1 : ¬ n % 32 = 31 := by omega
  have e := outsAt0_A m c (⟨n, h⟩ : Fin cfg0.N) h0 h1
  rw [e]
  exact scratch2_A (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) scM0_2 (Memref.isWhole_whole _) ((hcond0_0 (⟨n, h⟩ : Fin cfg0.N)).mpr h0) (fun h' => h1 ((hcond0_1 (⟨n, h⟩ : Fin cfg0.N)).mp h')) (iblk m c 0 (⟨n, h⟩ : Fin cfg0.N)) (iblk m c 1 (⟨n, h⟩ : Fin cfg0.N))

theorem sc2_step (c : Dev nD) (n : ℕ) (h : n + 1 < cfg0.N) (h0 : ¬ (n + 1) % 32 = 0) :
    (outsAt0 m c (n + 1) h).2.2.2.2.2 = addf ((outsAt0 m c n (Nat.lt_of_succ_lt h)).2.2.2.2.2) (accV (F := Ideal) (pblk m c ⟨n + 1, h⟩) (lblk m c ⟨n + 1, h⟩)) := by
  by_cases h1 : (n + 1) % 32 = 31
  · have e := outsAt0_C m c (⟨n + 1, h⟩ : Fin cfg0.N) h0 h1
    rw [e]
    exact scratch2_C (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) (fun h' => h0 ((hcond0_0 (⟨n + 1, h⟩ : Fin cfg0.N)).mp h')) ((hcond0_1 (⟨n + 1, h⟩ : Fin cfg0.N)).mpr h1) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2.1 (outsAt0 m c ((⟨n + 1, h⟩ : Fin cfg0.N).val - 1) (Nat.lt_of_le_of_lt (Nat.sub_le _ _) (⟨n + 1, h⟩ : Fin cfg0.N).isLt)).2.2.2.2.2
  · have e := outsAt0_B m c (⟨n + 1, h⟩ : Fin cfg0.N) h0 h1
    rw [e]
    exact scratch2_B (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) (fun h' => h0 ((hcond0_0 (⟨n + 1, h⟩ : Fin cfg0.N)).mp h')) (fun h' => h1 ((hcond0_1 (⟨n + 1, h⟩ : Fin cfg0.N)).mp h')) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2.1 (outsAt0 m c ((⟨n + 1, h⟩ : Fin cfg0.N).val - 1) (Nat.lt_of_le_of_lt (Nat.sub_le _ _) (⟨n + 1, h⟩ : Fin cfg0.N).isLt)).2.2.2.2.2

/-- At a run's last point the output block is accumulator 2 with a unit axis added. -/
theorem out4_eq (c : Dev nD) (t : ℕ) (ht : t < cfg0.N) (h31 : t % 32 = 31) :
    (outsAt0 m c t ht).2.2.1 = shapeCast S1x1x128 ((outsAt0 m c t ht).2.2.2.2.2) shapeCasts_S1x128_S1x1x128 := by
  have h0 : ¬ t % 32 = 0 := by omega
  have e := outsAt0_C m c (⟨t, ht⟩ : Fin cfg0.N) h0 h31
  rw [e]
  dsimp only
  rw [out4_C (F := Ideal) c (grid0.coords (⟨t, ht⟩ : Fin cfg0.N)) (ms0_0 (⟨t, ht⟩ : Fin cfg0.N)) (hs0_0 (⟨t, ht⟩ : Fin cfg0.N)) (ms0_1 (⟨t, ht⟩ : Fin cfg0.N)) (hs0_1 (⟨t, ht⟩ : Fin cfg0.N)) (ms0_2 (⟨t, ht⟩ : Fin cfg0.N)) (hs0_2 (⟨t, ht⟩ : Fin cfg0.N)) (ms0_3 (⟨t, ht⟩ : Fin cfg0.N)) (hs0_3 (⟨t, ht⟩ : Fin cfg0.N)) (ms0_4 (⟨t, ht⟩ : Fin cfg0.N)) (hs0_4 (⟨t, ht⟩ : Fin cfg0.N)) scM0_0 (Memref.isWhole_whole _) scM0_1 (Memref.isWhole_whole _) scM0_2 (Memref.isWhole_whole _) (fun h' => h0 ((hcond0_0 (⟨t, ht⟩ : Fin cfg0.N)).mp h')) ((hcond0_1 (⟨t, ht⟩ : Fin cfg0.N)).mpr h31) (iblk m c 0 (⟨t, ht⟩ : Fin cfg0.N)) (iblk m c 1 (⟨t, ht⟩ : Fin cfg0.N)) (outsAt0 m c ((⟨t, ht⟩ : Fin cfg0.N).val - 1) (Nat.lt_of_le_of_lt (Nat.sub_le _ _) (⟨t, ht⟩ : Fin cfg0.N).isLt)).2.2.2.1 (outsAt0 m c ((⟨t, ht⟩ : Fin cfg0.N).val - 1) (Nat.lt_of_le_of_lt (Nat.sub_le _ _) (⟨t, ht⟩ : Fin cfg0.N).isLt)).2.2.2.2.1 (outsAt0 m c ((⟨t, ht⟩ : Fin cfg0.N).val - 1) (Nat.lt_of_le_of_lt (Nat.sub_le _ _) (⟨t, ht⟩ : Fin cfg0.N).isLt)).2.2.2.2.2,
    scratch2_C (F := Ideal) c (grid0.coords (⟨t, ht⟩ : Fin cfg0.N)) (ms0_0 (⟨t, ht⟩ : Fin cfg0.N)) (hs0_0 (⟨t, ht⟩ : Fin cfg0.N)) (ms0_1 (⟨t, ht⟩ : Fin cfg0.N)) (hs0_1 (⟨t, ht⟩ : Fin cfg0.N)) (ms0_2 (⟨t, ht⟩ : Fin cfg0.N)) (hs0_2 (⟨t, ht⟩ : Fin cfg0.N)) (ms0_3 (⟨t, ht⟩ : Fin cfg0.N)) (hs0_3 (⟨t, ht⟩ : Fin cfg0.N)) (ms0_4 (⟨t, ht⟩ : Fin cfg0.N)) (hs0_4 (⟨t, ht⟩ : Fin cfg0.N)) scM0_0 (Memref.isWhole_whole _) scM0_1 (Memref.isWhole_whole _) scM0_2 (Memref.isWhole_whole _) (fun h' => h0 ((hcond0_0 (⟨t, ht⟩ : Fin cfg0.N)).mp h')) ((hcond0_1 (⟨t, ht⟩ : Fin cfg0.N)).mpr h31) (iblk m c 0 (⟨t, ht⟩ : Fin cfg0.N)) (iblk m c 1 (⟨t, ht⟩ : Fin cfg0.N)) (outsAt0 m c ((⟨t, ht⟩ : Fin cfg0.N).val - 1) (Nat.lt_of_le_of_lt (Nat.sub_le _ _) (⟨t, ht⟩ : Fin cfg0.N).isLt)).2.2.2.1 (outsAt0 m c ((⟨t, ht⟩ : Fin cfg0.N).val - 1) (Nat.lt_of_le_of_lt (Nat.sub_le _ _) (⟨t, ht⟩ : Fin cfg0.N).isLt)).2.2.2.2.1 (outsAt0 m c ((⟨t, ht⟩ : Fin cfg0.N).val - 1) (Nat.lt_of_le_of_lt (Nat.sub_le _ _) (⟨t, ht⟩ : Fin cfg0.N).isLt)).2.2.2.2.2]

theorem addend0_pos (c : Dev nD) (n : ℕ) (h : n < cfg0.N) (y : S1x128.Idx) :
    addend0 m c n y = cntV (F := Ideal) (pblk m c ⟨n, h⟩) y := by
  unfold addend0; exact dif_pos h

theorem sc0_first (c : Dev nD) (n : ℕ) (h : n < cfg0.N) (h0 : n % 32 = 0) (y : S1x128.Idx) :
    (outsAt0 m c n h).2.2.2.1 y = 0 + addend0 m c n y := by
  rw [sc0_reset m c n h h0, addend0_pos m c n h, ValueIdx.addf_apply, zeroV_apply]

theorem sc0_next (c : Dev nD) (n : ℕ) (h : n + 1 < cfg0.N) (h0 : ¬ (n + 1) % 32 = 0) (y : S1x128.Idx) :
    (outsAt0 m c (n + 1) h).2.2.2.1 y = (outsAt0 m c n (Nat.lt_of_succ_lt h)).2.2.2.1 y + addend0 m c (n + 1) y := by
  rw [sc0_step m c n h h0, addend0_pos m c (n + 1) h, ValueIdx.addf_apply]

/-- Accumulator 0 after point `t`: the sum of the lane vectors of the run's points up to `t`. -/
theorem sc0_eq (c : Dev nD) (t : ℕ) (ht : t < cfg0.N) (y : S1x128.Idx) :
    (outsAt0 m c t ht).2.2.2.1 y = 0 + ∑ s ∈ Finset.range (t % 32 + 1), addend0 m c (32 * (t / 32) + s) y :=
  run_sum (fun n h => (outsAt0 m c n h).2.2.2.1 y) (fun n => addend0 m c n y)
    (fun n h h0 => sc0_first m c n h h0 y) (fun n h h0 => sc0_next m c n h h0 y) t ht

theorem addend1_pos (c : Dev nD) (n : ℕ) (h : n < cfg0.N) (y : S1x128.Idx) :
    addend1 m c n y = confV (F := Ideal) (pblk m c ⟨n, h⟩) y := by
  unfold addend1; exact dif_pos h

theorem sc1_first (c : Dev nD) (n : ℕ) (h : n < cfg0.N) (h0 : n % 32 = 0) (y : S1x128.Idx) :
    (outsAt0 m c n h).2.2.2.2.1 y = 0 + addend1 m c n y := by
  rw [sc1_reset m c n h h0, addend1_pos m c n h, ValueIdx.addf_apply, zeroV_apply]

theorem sc1_next (c : Dev nD) (n : ℕ) (h : n + 1 < cfg0.N) (h0 : ¬ (n + 1) % 32 = 0) (y : S1x128.Idx) :
    (outsAt0 m c (n + 1) h).2.2.2.2.1 y = (outsAt0 m c n (Nat.lt_of_succ_lt h)).2.2.2.2.1 y + addend1 m c (n + 1) y := by
  rw [sc1_step m c n h h0, addend1_pos m c (n + 1) h, ValueIdx.addf_apply]

/-- Accumulator 1 after point `t`: the sum of the lane vectors of the run's points up to `t`. -/
theorem sc1_eq (c : Dev nD) (t : ℕ) (ht : t < cfg0.N) (y : S1x128.Idx) :
    (outsAt0 m c t ht).2.2.2.2.1 y = 0 + ∑ s ∈ Finset.range (t % 32 + 1), addend1 m c (32 * (t / 32) + s) y :=
  run_sum (fun n h => (outsAt0 m c n h).2.2.2.2.1 y) (fun n => addend1 m c n y)
    (fun n h h0 => sc1_first m c n h h0 y) (fun n h h0 => sc1_next m c n h h0 y) t ht

theorem addend2_pos (c : Dev nD) (n : ℕ) (h : n < cfg0.N) (y : S1x128.Idx) :
    addend2 m c n y = accV (F := Ideal) (pblk m c ⟨n, h⟩) (lblk m c ⟨n, h⟩) y := by
  unfold addend2; exact dif_pos h

theorem sc2_first (c : Dev nD) (n : ℕ) (h : n < cfg0.N) (h0 : n % 32 = 0) (y : S1x128.Idx) :
    (outsAt0 m c n h).2.2.2.2.2 y = 0 + addend2 m c n y := by
  rw [sc2_reset m c n h h0, addend2_pos m c n h, ValueIdx.addf_apply, zeroV_apply]

theorem sc2_next (c : Dev nD) (n : ℕ) (h : n + 1 < cfg0.N) (h0 : ¬ (n + 1) % 32 = 0) (y : S1x128.Idx) :
    (outsAt0 m c (n + 1) h).2.2.2.2.2 y = (outsAt0 m c n (Nat.lt_of_succ_lt h)).2.2.2.2.2 y + addend2 m c (n + 1) y := by
  rw [sc2_step m c n h h0, addend2_pos m c (n + 1) h, ValueIdx.addf_apply]

/-- Accumulator 2 after point `t`: the sum of the lane vectors of the run's points up to `t`. -/
theorem sc2_eq (c : Dev nD) (t : ℕ) (ht : t < cfg0.N) (y : S1x128.Idx) :
    (outsAt0 m c t ht).2.2.2.2.2 y = 0 + ∑ s ∈ Finset.range (t % 32 + 1), addend2 m c (32 * (t / 32) + s) y :=
  run_sum (fun n h => (outsAt0 m c n h).2.2.2.2.2 y) (fun n => addend2 m c n y)
    (fun n h h0 => sc2_first m c n h h0 y) (fun n h h0 => sc2_next m c n h h0 y) t ht

end Fold

end Cert.KernelIdeal.Carry

end
-- ==== Proof.SumBlocks.lean ====
/-
  Regrouping a sum over the 33554432 samples.

  The sample array is read as 64 row blocks of 4096 rows by 128 lanes: entry `(r, q)` of block `t` is sample
  `(t * 4096 + r) * 128 + q`.  Since 64 * 4096 * 128 = 33554432, the map `(t, r, q) ↦ (t * 4096 + r) * 128 + q` is a
  bijection from block–row–lane triples onto sample positions (its inverse takes `e` to
  `(e / 524288, (e / 128) % 4096, e % 128)`), so a sum over all samples is the sum over the blocks of the sums over
  each block.  The 64 blocks are in turn visited as two runs of 32 consecutive blocks.
-/
import Idealize.ShloMosaic.Lib.ValueIdx
import Idealize.ShloMosaic.PureOps.Ideal
import Mathlib.Algebra.BigOperators.Fin
import Mathlib.Algebra.BigOperators.Group.Finset.Basic
import Mathlib.Data.Fintype.BigOperators

noncomputable section

open scoped BigOperators

namespace Cert.Ece.Blocks

open Idealize.ShloMosaic

/-- The shape of the sample arrays: one axis of 33554432 entries. -/
abbrev SN : Shape := ⟨1, ![33554432]⟩

/-- The shape of one row block: 4096 rows by 128 lanes. -/
abbrev SB : Shape := ⟨2, ![4096, 128]⟩

/-- The position of entry `j` of block `t` lies inside the sample array. -/
theorem flat_lt (t : Fin 64) (j : SB.Idx) :
    (t.val * 4096 + (j 0).val) * 128 + (j 1).val < 33554432 := by
  have h0 : (j 0).val < 4096 := ValueIdx.idx2_lt0 j
  have h1 : (j 1).val < 128 := ValueIdx.idx2_lt1 j
  have ht : t.val < 64 := t.isLt
  omega

/-- The sample position of entry `j` of row block `t`. -/
def flat (t : Fin 64) (j : SB.Idx) : SN.Idx :=
  ValueIdx.ix1 ⟨(t.val * 4096 + (j 0).val) * 128 + (j 1).val, flat_lt t j⟩

theorem flat_val (t : Fin 64) (j : SB.Idx) :
    ((flat t j) 0).val = (t.val * 4096 + (j 0).val) * 128 + (j 1).val := rfl

/-- A sample position is below the array's extent, as a numeral. -/
theorem pos_lt (e : SN.Idx) : (e 0).val < 33554432 := (e 0).isLt

/-- Block–entry pairs are the sample positions: `e` is entry `((e / 128) % 4096, e % 128)` of block `e / 524288`. -/
def blockEquiv : Fin 64 × SB.Idx ≃ SN.Idx where
  toFun p := flat p.1 p.2
  invFun e :=
    (⟨(e 0).val / 524288, by have := pos_lt e; omega⟩,
     ValueIdx.ix2 ⟨((e 0).val / 128) % 4096, Nat.mod_lt _ (by norm_num)⟩
                  ⟨(e 0).val % 128, Nat.mod_lt _ (by norm_num)⟩)
  left_inv p := by
    obtain ⟨t, j⟩ := p
    have h0 : (j 0).val < 4096 := ValueIdx.idx2_lt0 j
    have h1 : (j 1).val < 128 := ValueIdx.idx2_lt1 j
    have ht : t.val < 64 := t.isLt
    have hv := flat_val t j
    refine Prod.ext (Fin.ext ?_) ?_
    · show ((flat t j) 0).val / 524288 = t.val
      omega
    · funext a
      match a with
      | ⟨0, _⟩ =>
        refine Fin.ext ?_
        show (((flat t j) 0).val / 128) % 4096 = (j 0).val
        omega
      | ⟨1, _⟩ =>
        refine Fin.ext ?_
        show ((flat t j) 0).val % 128 = (j 1).val
        omega
  right_inv e := by
    have he := pos_lt e
    funext a
    match a with
    | ⟨0, _⟩ =>
      refine Fin.ext ?_
      show ((e 0).val / 524288 * 4096 + ((e 0).val / 128) % 4096) * 128 + (e 0).val % 128 = (e 0).val
      omega

/-- The sum over all samples, taken block by block. -/
theorem sum_blocks {M : Type*} [AddCommMonoid M] (g : SN.Idx → M) :
    ∑ t : Fin 64, ∑ j : SB.Idx, g (flat t j) = ∑ e : SN.Idx, g e := by
  rw [← Equiv.sum_comp blockEquiv g, Fintype.sum_prod_type]
  rfl

/-- The 64 blocks, taken as two runs of 32 consecutive blocks. -/
theorem sum_runs {M : Type*} [AddCommMonoid M] (h : ℕ → M) :
    ∑ c : Fin 2, ∑ s ∈ Finset.range 32, h (32 * c.val + s) = ∑ t : Fin 64, h t.val := by
  rw [Fin.sum_univ_two, Fin.sum_univ_eq_sum_range h 64, show (64 : ℕ) = 32 + 32 from rfl,
    Finset.sum_range_add]
  simp

end Cert.Ece.Blocks

end
-- ==== Proof.Arrays.lean ====
/-
  The kernel's arrays, read where its pipeline puts them.

  The two inputs: @main reshapes each flat array of 33554432 samples to 262144 rows of 128 lanes, and the pipeline
  stages block row `t` (4096 rows) at grid point `t = 32 c + i`.  So entry `(r, q)` of the block at point `t` is
  sample `(4096 t + r) * 128 + q` of the flat array.

  The three outputs: each [2, 1, 128] array is written back one row at a time, row `c` at the last point of run `c`.
-/
import proofs.«177050_j16947940950786_1_alg».proof.Proof.Gen.KernelIdeal.Frame
import proofs.«177050_j16947940950786_1_alg».proof.Proof.SumBlocks
import Idealize.ShloMosaic.PureOps.Ideal
import Idealize.ShloMosaic.Lib.ValueIdx
import Idealize.ShloMosaic.Lib.Pipeline.Value
import Idealize.ShloMosaic.Lib.StableHlo.Run
import Idealize.ShloMosaic.Lib.Tactic

noncomputable section

namespace Cert.KernelIdeal.Arrays

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! ## The input blocks are runs of rows of the flat sample arrays -/

/-- Block `t` of either input is block row `t`, at column block 0. -/
theorem in_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The confidences as the region finds them: the flat array, reshaped to rows of 128. -/
theorem conf_rows (c : Dev nD) :
    (V m c main_v0 : S262144x128.Idx → EReal)
      = shapeCast S262144x128 (m ((c : Thread nD τ).loc main_arg0)) shapeCasts_S33554432_S262144x128 := by
  show StableHlo.after hostOps0 (fun b => m (c, b)) (Proc.devRef .tc main_v0) = _
  after_results
  rfl

/-- The labels as the region finds them: the flat array, reshaped to rows of 128. -/
theorem label_rows (c : Dev nD) :
    (V m c main_v1 : S262144x128.Idx → BitVec 32)
      = shapeCast S262144x128 (m ((c : Thread nD τ).loc main_arg1)) shapeCasts_S33554432_S262144x128 := by
  show StableHlo.after hostOps0 (fun b => m (c, b)) (Proc.devRef .tc main_v1) = _
  after_results
  rfl

/-- A reshaped flat array at row `r`, lane `q` is the flat array at `128 r + q`. -/
theorem rows_apply {α : Type} (x : S33554432.Idx → α) (i : S262144x128.Idx) (e : S33554432.Idx)
    (he : (e 0).val = (i 0).val * 128 + (i 1).val) :
    shapeCast S262144x128 x shapeCasts_S33554432_S262144x128 i = x e := by
  refine shapeCast_apply x shapeCasts_S33554432_S262144x128 i e ?_
  rw [Shape.rowMajor_val_one, Shape.rowMajor_val_two]
  exact he

/-- Entry `j` of the confidence block at point `t` is the flat array's sample at `flat t j`. -/
theorem conf_block (c : Dev nD) (t : Fin cfg0.N) (j : S4096x128.Idx) :
    (iblk m c 0 t : Vec Ideal S4096x128 .f32) j
      = m ((c : Thread nD τ).loc main_arg0) (Cert.Ece.Blocks.flat (Fin.cast N_0 t) j) := by
  obtain ⟨e0, e1, -, -⟩ := in_index t
  unfold iblk
  rw [View.read_apply]
  show V m c main_v0 (((cfg0.win 0).blk t).view.emb j) = _
  refine (congrFun (conf_rows m c) _).trans ?_
  refine rows_apply _ _ _ ?_
  show (t.val * 4096 + (j 0).val) * 128 + (j 1).val
    = (win0_0.index t (0 : Fin 2) * 4096 + 1 * (j 0).val) * 128 + (win0_0.index t (1 : Fin 2) * 128 + 1 * (j 1).val)
  rw [e0, e1]; omega

/-- Entry `j` of the label block at point `t` is the flat array's sample at `flat t j`. -/
theorem label_block (c : Dev nD) (t : Fin cfg0.N) (j : S4096x128.Idx) :
    (iblk m c 1 t : Vec Ideal S4096x128 .i32) j
      = m ((c : Thread nD τ).loc main_arg1) (Cert.Ece.Blocks.flat (Fin.cast N_0 t) j) := by
  obtain ⟨-, -, e0, e1⟩ := in_index t
  unfold iblk
  rw [View.read_apply]
  show V m c main_v1 (((cfg0.win 1).blk t).view.emb j) = _
  refine (congrFun (label_rows m c) _).trans ?_
  refine rows_apply _ _ _ ?_
  show (t.val * 4096 + (j 0).val) * 128 + (j 1).val
    = (win0_1.index t (0 : Fin 2) * 4096 + 1 * (j 0).val) * 128 + (win0_1.index t (1 : Fin 2) * 128 + 1 * (j 1).val)
  rw [e0, e1]; omega

/-! ## The three output arrays after the run

Each output array [2, 1, 128] has one row per run of 32 blocks.  Its staging buffer is written back only at the last
point of a run (`t % 32 = 31`), into row `t / 32`; the two last points between them cover the array.  So the array
ends holding, in row `q`, what the last point of run `q` left in the staging buffer. -/

/-- Output block `t` of window 2 is row `t / 32` (the run of blocks the point belongs to), at position 0 on the other two axes. -/
theorem out_index2 : ∀ t : Fin cfg0.N,
    win0_2.index t (0 : Fin 3) = t.val / 32 ∧ win0_2.index t (1 : Fin 3) = 0 ∧ win0_2.index t (2 : Fin 3) = 0 :=
  (by decide +kernel : ∀ t : Fin grid0.N, _)

/-- Output block `t` of window 3 is row `t / 32` (the run of blocks the point belongs to), at position 0 on the other two axes. -/
theorem out_index3 : ∀ t : Fin cfg0.N,
    win0_3.index t (0 : Fin 3) = t.val / 32 ∧ win0_3.index t (1 : Fin 3) = 0 ∧ win0_3.index t (2 : Fin 3) = 0 :=
  (by decide +kernel : ∀ t : Fin grid0.N, _)

/-- Output block `t` of window 4 is row `t / 32` (the run of blocks the point belongs to), at position 0 on the other two axes. -/
theorem out_index4 : ∀ t : Fin cfg0.N,
    win0_4.index t (0 : Fin 3) = t.val / 32 ∧ win0_4.index t (1 : Fin 3) = 0 ∧ win0_4.index t (2 : Fin 3) = 0 :=
  (by decide +kernel : ∀ t : Fin grid0.N, _)

/-- The last point of run `q`. -/
def lastOf (q : Fin 2) : Fin cfg0.N := ⟨32 * q.val + 31, by have := q.isLt; have : cfg0.N = 64 := N_0; omega⟩

theorem lastOf_val (q : Fin 2) : (lastOf q).val = 32 * q.val + 31 := rfl

/-- An index of the count array is in point `t`'s block iff each coordinate is in the block's range on its axis. -/
theorem mem_blk2 (t : Fin cfg0.N) (i : S2x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v2_0).slice (win0_2.rect t)).set ↔ _
  rw [View.set_slice_whole, Rect.mem_set_unit]
  exact Iff.rfl

/-- The count array after the run: row `q` is what the last point of run `q` leaves in the staging buffer. -/
theorem final_cnt (c : Dev nD) (G : S2x1x128.Idx → EReal)
    (hG : ∀ (t : Fin cfg0.N), t.val % 32 = 31 → ∀ y : S1x1x128.Idx,
      (outsAt0 m c t.val t.isLt).1 y
        = G (ValueIdx.ix3 ⟨t.val / 32, by have := t.isLt; have : cfg0.N = 64 := N_0; omega⟩ 0 (y 2))) :
    (dats m 0 c).arrAt 2 cfg0.N = G := by
  refine (dats m 0 c).arrAt_eq_of_cover 2 G (fun t hf => ?_) (fun i => ?_)
  · have ht : t.val % 32 = 31 := (flush0_2 t).mp hf
    obtain ⟨e0, e1, e2⟩ := out_index2 t
    show (cfg0.win 2).cut (grid0.coords t) ((dats m 0 c).after 2 t) = _
    rw [after0_2]
    funext y
    rw [View.read_apply]
    refine (hG t ht y).trans (congrArg G ?_)
    have y0 : (y 0).val < 1 := (y 0).isLt
    have y1 : (y 1).val < 1 := (y 1).isLt
    funext a
    apply Fin.ext
    match a with
    | ⟨0, _⟩ => show t.val / 32 = win0_2.index t (0 : Fin 3) * 1 + 1 * (y 0).val; rw [e0]; omega
    | ⟨1, _⟩ => show 0 = win0_2.index t (1 : Fin 3) * 1 + 1 * (y 1).val; rw [e1]; omega
    | ⟨2, _⟩ => show (y 2).val = win0_2.index t (2 : Fin 3) * 128 + 1 * (y 2).val; rw [e2]; omega
  · have i0 : (i 0).val < 2 := (i 0).isLt
    have i1 : (i 1).val < 1 := (i 1).isLt
    have i2 : (i 2).val < 128 := (i 2).isLt
    obtain ⟨e0, e1, e2⟩ := out_index2 (lastOf ⟨(i 0).val, i0⟩)
    have hv : (lastOf ⟨(i 0).val, i0⟩).val = 32 * (i 0).val + 31 := rfl
    refine ⟨lastOf ⟨(i 0).val, i0⟩, (flush0_2 _).mpr (by rw [hv]; omega), ?_⟩
    rw [mem_blk2]
    intro a
    match a with
    | ⟨0, _⟩ => show win0_2.index _ (0 : Fin 3) * 1 ≤ (i 0).val ∧ (i 0).val < win0_2.index _ (0 : Fin 3) * 1 + 1; rw [e0, hv]; omega
    | ⟨1, _⟩ => show win0_2.index _ (1 : Fin 3) * 1 ≤ (i 1).val ∧ (i 1).val < win0_2.index _ (1 : Fin 3) * 1 + 1; rw [e1]; omega
    | ⟨2, _⟩ => show win0_2.index _ (2 : Fin 3) * 128 ≤ (i 2).val ∧ (i 2).val < win0_2.index _ (2 : Fin 3) * 128 + 128; rw [e2]; omega

/-- An index of the confidence-sum array is in point `t`'s block iff each coordinate is in the block's range on its axis. -/
theorem mem_blk3 (t : Fin cfg0.N) (i : S2x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v2_1).slice (win0_3.rect t)).set ↔ _
  rw [View.set_slice_whole, Rect.mem_set_unit]
  exact Iff.rfl

/-- The confidence-sum array after the run: row `q` is what the last point of run `q` leaves in the staging buffer. -/
theorem final_conf (c : Dev nD) (G : S2x1x128.Idx → EReal)
    (hG : ∀ (t : Fin cfg0.N), t.val % 32 = 31 → ∀ y : S1x1x128.Idx,
      (outsAt0 m c t.val t.isLt).2.1 y
        = G (ValueIdx.ix3 ⟨t.val / 32, by have := t.isLt; have : cfg0.N = 64 := N_0; omega⟩ 0 (y 2))) :
    (dats m 0 c).arrAt 3 cfg0.N = G := by
  refine (dats m 0 c).arrAt_eq_of_cover 3 G (fun t hf => ?_) (fun i => ?_)
  · have ht : t.val % 32 = 31 := (flush0_3 t).mp hf
    obtain ⟨e0, e1, e2⟩ := out_index3 t
    show (cfg0.win 3).cut (grid0.coords t) ((dats m 0 c).after 3 t) = _
    rw [after0_3]
    funext y
    rw [View.read_apply]
    refine (hG t ht y).trans (congrArg G ?_)
    have y0 : (y 0).val < 1 := (y 0).isLt
    have y1 : (y 1).val < 1 := (y 1).isLt
    funext a
    apply Fin.ext
    match a with
    | ⟨0, _⟩ => show t.val / 32 = win0_3.index t (0 : Fin 3) * 1 + 1 * (y 0).val; rw [e0]; omega
    | ⟨1, _⟩ => show 0 = win0_3.index t (1 : Fin 3) * 1 + 1 * (y 1).val; rw [e1]; omega
    | ⟨2, _⟩ => show (y 2).val = win0_3.index t (2 : Fin 3) * 128 + 1 * (y 2).val; rw [e2]; omega
  · have i0 : (i 0).val < 2 := (i 0).isLt
    have i1 : (i 1).val < 1 := (i 1).isLt
    have i2 : (i 2).val < 128 := (i 2).isLt
    obtain ⟨e0, e1, e2⟩ := out_index3 (lastOf ⟨(i 0).val, i0⟩)
    have hv : (lastOf ⟨(i 0).val, i0⟩).val = 32 * (i 0).val + 31 := rfl
    refine ⟨lastOf ⟨(i 0).val, i0⟩, (flush0_3 _).mpr (by rw [hv]; omega), ?_⟩
    rw [mem_blk3]
    intro a
    match a with
    | ⟨0, _⟩ => show win0_3.index _ (0 : Fin 3) * 1 ≤ (i 0).val ∧ (i 0).val < win0_3.index _ (0 : Fin 3) * 1 + 1; rw [e0, hv]; omega
    | ⟨1, _⟩ => show win0_3.index _ (1 : Fin 3) * 1 ≤ (i 1).val ∧ (i 1).val < win0_3.index _ (1 : Fin 3) * 1 + 1; rw [e1]; omega
    | ⟨2, _⟩ => show win0_3.index _ (2 : Fin 3) * 128 ≤ (i 2).val ∧ (i 2).val < win0_3.index _ (2 : Fin 3) * 128 + 128; rw [e2]; omega

/-- An index of the label-sum array is in point `t`'s block iff each coordinate is in the block's range on its axis. -/
theorem mem_blk4 (t : Fin cfg0.N) (i : S2x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v2_2).slice (win0_4.rect t)).set ↔ _
  rw [View.set_slice_whole, Rect.mem_set_unit]
  exact Iff.rfl

/-- The label-sum array after the run: row `q` is what the last point of run `q` leaves in the staging buffer. -/
theorem final_acc (c : Dev nD) (G : S2x1x128.Idx → EReal)
    (hG : ∀ (t : Fin cfg0.N), t.val % 32 = 31 → ∀ y : S1x1x128.Idx,
      (outsAt0 m c t.val t.isLt).2.2.1 y
        = G (ValueIdx.ix3 ⟨t.val / 32, by have := t.isLt; have : cfg0.N = 64 := N_0; omega⟩ 0 (y 2))) :
    (dats m 0 c).arrAt 4 cfg0.N = G := by
  refine (dats m 0 c).arrAt_eq_of_cover 4 G (fun t hf => ?_) (fun i => ?_)
  · have ht : t.val % 32 = 31 := (flush0_4 t).mp hf
    obtain ⟨e0, e1, e2⟩ := out_index4 t
    show (cfg0.win 4).cut (grid0.coords t) ((dats m 0 c).after 4 t) = _
    rw [after0_4]
    funext y
    rw [View.read_apply]
    refine (hG t ht y).trans (congrArg G ?_)
    have y0 : (y 0).val < 1 := (y 0).isLt
    have y1 : (y 1).val < 1 := (y 1).isLt
    funext a
    apply Fin.ext
    match a with
    | ⟨0, _⟩ => show t.val / 32 = win0_4.index t (0 : Fin 3) * 1 + 1 * (y 0).val; rw [e0]; omega
    | ⟨1, _⟩ => show 0 = win0_4.index t (1 : Fin 3) * 1 + 1 * (y 1).val; rw [e1]; omega
    | ⟨2, _⟩ => show (y 2).val = win0_4.index t (2 : Fin 3) * 128 + 1 * (y 2).val; rw [e2]; omega
  · have i0 : (i 0).val < 2 := (i 0).isLt
    have i1 : (i 1).val < 1 := (i 1).isLt
    have i2 : (i 2).val < 128 := (i 2).isLt
    obtain ⟨e0, e1, e2⟩ := out_index4 (lastOf ⟨(i 0).val, i0⟩)
    have hv : (lastOf ⟨(i 0).val, i0⟩).val = 32 * (i 0).val + 31 := rfl
    refine ⟨lastOf ⟨(i 0).val, i0⟩, (flush0_4 _).mpr (by rw [hv]; omega), ?_⟩
    rw [mem_blk4]
    intro a
    match a with
    | ⟨0, _⟩ => show win0_4.index _ (0 : Fin 3) * 1 ≤ (i 0).val ∧ (i 0).val < win0_4.index _ (0 : Fin 3) * 1 + 1; rw [e0, hv]; omega
    | ⟨1, _⟩ => show win0_4.index _ (1 : Fin 3) * 1 ≤ (i 1).val ∧ (i 1).val < win0_4.index _ (1 : Fin 3) * 1 + 1; rw [e1]; omega
    | ⟨2, _⟩ => show win0_4.index _ (2 : Fin 3) * 128 ≤ (i 2).val ∧ (i 2).val < win0_4.index _ (2 : Fin 3) * 128 + 128; rw [e2]; omega

end Cert.KernelIdeal.Arrays

end
-- ==== Proof.HostPair.lean ====
/-
  The host's last step on each of the kernel's three outputs, read at one bin.

  An output `O` has shape [2, 1, 128]: one row of 128 lanes per run of blocks.  The host keeps lanes 0..14 of each row,
  drops the unit axis, and adds the two rows starting from zero.  At bin `b` this is `O (0, 0, b) + O (1, 0, b)`: the
  reshape [2, 1, 15] → [2, 15] keeps the row-major position, `15 c + b` on both sides, and the slice has zero offsets.
-/
import proofs.«177050_j16947940950786_1_alg».proof.KernelIdeal
import Idealize.ShloMosaic.PureOps.Ideal.Laws
import Idealize.ShloMosaic.Lib.ValueIdx
import Idealize.ShloMosaic.Lib.Pipeline.Value
import Mathlib.Algebra.BigOperators.Fin

noncomputable section

open scoped BigOperators

namespace Cert.Ece.Host

open Cert.KernelIdeal Idealize.ShloMosaic
open Cert.KernelIdeal.Facts₀

/-- A bin index below 15. -/
theorem bin_lt (b : S15.Idx) : (b 0).val < 15 := (b 0).isLt

/-- Bin `b` as a lane of a 128-lane row. -/
def lane15 (b : S15.Idx) : Fin 128 := ⟨(b 0).val, by have := bin_lt b; omega⟩

/-- [2, 15] with its first axis summed away is [15]. -/
theorem reduces_S2x15_S15 : S2x15.Reduces [0] S15 := by decide

variable [Cert.KernelIdeal.Facts]

/-- Entry `(c, b)` of the sliced and reshaped output is entry `(c, 0, b)` of the output. -/
theorem read_row (O : FVec Ideal S2x1x128 .f32) (c : Fin 2) (b : S15.Idx) :
    shapeCast S2x15 (extractStridedSlice S2x1x15 ![0, 0, 0] O slices_S2x1x128_S2x1x15_0_0_0) shapeCasts_S2x1x15_S2x15
        (reduces_S2x15_S15.lift b c)
      = O (ValueIdx.ix3 c 0 (lane15 b)) := by
  have hb := bin_lt b
  refine (shapeCast_apply _ shapeCasts_S2x1x15_S2x15 (reduces_S2x15_S15.lift b c)
    (ValueIdx.ix3 c (0 : Fin 1) (⟨(b 0).val, hb⟩ : Fin 15)) ?_).trans ?_
  · rw [Shape.rowMajor_val_three, Shape.rowMajor_val_two]
    show (c.val * 1 + 0) * 15 + (b 0).val = c.val * 15 + (b 0).val
    omega
  · refine extractStridedSlice_apply _ O slices_S2x1x128_S2x1x15_0_0_0 _ (ValueIdx.ix3 c 0 (lane15 b)) ?_
    intro a
    match a with
    | ⟨0, _⟩ => show c.val = 0 + c.val; omega
    | ⟨1, _⟩ => show 0 = 0 + 0; rfl
    | ⟨2, _⟩ => show (b 0).val = 0 + (b 0).val; omega

/-- The host's sum of the two rows of an output, at bin `b`. -/
theorem pair_sum (O : FVec Ideal S2x1x128 .f32) (b : S15.Idx) :
    Host.reduceAdd (F := Ideal) (shapeCast S2x15 (extractStridedSlice S2x1x15 ![0, 0, 0] O slices_S2x1x128_S2x1x15_0_0_0) shapeCasts_S2x1x15_S2x15) (constant S_ .f32 0x00000000#32) reducesTo_S2x15_S15_d0 h_S_ b
      = O (ValueIdx.ix3 0 0 (lane15 b)) + O (ValueIdx.ix3 1 0 (lane15 b)) := by
  show Ideal.hostReduceAdd reducesTo_S2x15_S15_d0 _ (Ideal.ofBits .f32 0x00000000#32) b = _
  rw [Ideal.hostReduceAdd_single reducesTo_S2x15_S15_d0 reduces_S2x15_S15, Ideal.ofBits_zero_f32, zero_add]
  show ∑ k : Fin 2, _ = _
  rw [Fin.sum_univ_two, read_row, read_row]

end Cert.Ece.Host

end
-- ==== Proof.Totals.lean ====
/-
  The kernel's three per-bin totals, as sums over all samples.

  After the run each output array holds, at (run q, lane l), zero plus the sum over the run's 32 points of the
  point's lane vector at lane l.  The host adds the two runs.  For a bin l < 15 a point's lane vector at lane l is
  the point's block total for bin l, a block is 4096 x 128 consecutive samples, and the 64 blocks tile the sample
  array: so the host's sum is the bin's total over all samples.
-/
import proofs.«177050_j16947940950786_1_alg».proof.Proof.Fold
import proofs.«177050_j16947940950786_1_alg».proof.Proof.Arrays
import proofs.«177050_j16947940950786_1_alg».proof.Proof.HostPair
import proofs.«177050_j16947940950786_1_alg».proof.Proof.SumBlocks
import proofs.«177050_j16947940950786_1_alg».proof.Proof.Bins

set_option maxRecDepth 16384

noncomputable section

open Idealize.ShloMosaic Idealize.ShloMosaic.TcCoe Idealize.SL.Sem
open Idealize.ShloMosaic.Pipeline (Dat)

namespace Cert.KernelIdeal.Totals

open Cert.KernelIdeal Cert.KernelIdeal.Gen Cert.KernelIdeal.Lanes Cert.KernelIdeal.Carry Cert.KernelIdeal.Arrays
open Cert.Ece Cert.Ece.Blocks Cert.Ece.Host ValueIdx

variable (m : (ℓ : Loc nD τ sig) → Buf (Elt Ideal) ℓ)

/-- A block's index with its unit axis dropped. -/
theorem drop_unit (y : S1x1x128.Idx) : (fun a : Fin 2 => y a.succ) = (ix2 (0 : Fin 1) (y 2 : Fin 128) : S1x128.Idx) :=
  funext fun a => match a with
    | ⟨0, _⟩ => Fin.ext (by have h : ((y 1 : Fin 1) : ℕ) < 1 := (y 1).isLt; show ((y 1 : Fin 1) : ℕ) = 0; omega)
    | ⟨1, _⟩ => rfl

/-- A grid point as one of the 64 blocks. -/
theorem cast_point (t : Fin 64) (h : t.val < cfg0.N) : Fin.cast N_0 (⟨t.val, h⟩ : Fin cfg0.N) = t := Fin.ext rfl

/-! ## The count array -/

/-- What the count array holds after the run: per run and lane, the sum of the run's lane vectors. -/
def arr0 (c : Dev nD) : S2x1x128.Idx → EReal :=
  fun i => 0 + ∑ s ∈ Finset.range 32, addend0 m c (32 * (i 0).val + s) (ix2 (i 1) (i 2))

theorem arr0_eq (c : Dev nD) : (dats m 0 c).arrAt 2 cfg0.N = arr0 m c := by
  refine final_cnt m c (arr0 m c) (fun t h31 y => ?_)
  have e1 := congrFun (out2_eq m c t.val t.isLt h31) y
  have e2 := shapeCast_addUnit_apply ![1, 128] ((outsAt0 m c t.val t.isLt).2.2.2.1) shapeCasts_S1x128_S1x1x128 y
  have e3 := sc0_eq m c t.val t.isLt (ix2 (0 : Fin 1) (y 2 : Fin 128))
  rw [h31] at e3
  exact e1.trans (e2.trans ((congrArg ((outsAt0 m c t.val t.isLt).2.2.2.1) (drop_unit y)).trans e3))

/-- The two runs' entries at one lane, added: the sum over all 64 points. -/
theorem arr0_pair (c : Dev nD) (l : Fin 128) :
    arr0 m c (ix3 0 0 l) + arr0 m c (ix3 1 0 l) = ∑ t : Fin 64, addend0 m c t.val (ix2 0 l) := by
  rw [← sum_runs (fun n => addend0 m c n (ix2 0 l)), Fin.sum_univ_two]
  unfold arr0
  simp only [zero_add]

/-- One point's share, for a bin below 15: the block's total, over the samples the block holds. -/
theorem addend0_bin (c : Dev nD) (t : Fin 64) (l : Fin 128) (hl : l.val < 15) (k : BitVec 32)
    (hk : k = BitVec.ofNat 32 l.val) :
    addend0 m c t.val (ix2 0 l) = ∑ i : SB.Idx, cntTerm k ((m ((c : Thread nD τ).loc main_arg0)) (flat t i)) := by
  have h : t.val < cfg0.N := lt_of_lt_of_eq t.isLt N_0.symm
  subst hk
  unfold addend0
  rw [dif_pos h, cnt_lane (pblk m c ⟨t.val, h⟩) 0 l hl]
  refine Finset.sum_congr rfl fun i _ => ?_
  show cntTerm (BitVec.ofNat 32 l.val) (pblk m c ⟨t.val, h⟩ i) = _
  rw [show pblk m c ⟨t.val, h⟩ i = _ from conf_block m c ⟨t.val, h⟩ i, cast_point t h]

/-- The host's sum of the two runs at bin `b`: the bin's total over all samples. -/
theorem host0 (c : Dev nD) (b : S15.Idx) :
    Host.reduceAdd (F := Ideal) (shapeCast S2x15 (extractStridedSlice S2x1x15 ![0, 0, 0] ((dats m 0 c).arrAt 2 cfg0.N)
        slices_S2x1x128_S2x1x15_0_0_0) shapeCasts_S2x1x15_S2x15) (constant S_ .f32 0x00000000#32) reducesTo_S2x15_S15_d0 h_S_ b
      = cntTot (m ((c : Thread nD τ).loc main_arg0)) (BitVec.ofNat 32 (b 0).val) := by
  rw [arr0_eq, pair_sum, arr0_pair]
  rw [Finset.sum_congr rfl fun t _ => addend0_bin m c t (lane15 b) (bin_lt b) (BitVec.ofNat 32 (b 0).val) rfl]
  exact sum_blocks (fun e => cntTerm (BitVec.ofNat 32 (b 0).val) ((m ((c : Thread nD τ).loc main_arg0)) e))

/-! ## The confidence array -/

/-- What the confidence array holds after the run: per run and lane, the sum of the run's lane vectors. -/
def arr1 (c : Dev nD) : S2x1x128.Idx → EReal :=
  fun i => 0 + ∑ s ∈ Finset.range 32, addend1 m c (32 * (i 0).val + s) (ix2 (i 1) (i 2))

theorem arr1_eq (c : Dev nD) : (dats m 0 c).arrAt 3 cfg0.N = arr1 m c := by
  refine final_conf m c (arr1 m c) (fun t h31 y => ?_)
  have e1 := congrFun (out3_eq m c t.val t.isLt h31) y
  have e2 := shapeCast_addUnit_apply ![1, 128] ((outsAt0 m c t.val t.isLt).2.2.2.2.1) shapeCasts_S1x128_S1x1x128 y
  have e3 := sc1_eq m c t.val t.isLt (ix2 (0 : Fin 1) (y 2 : Fin 128))
  rw [h31] at e3
  exact e1.trans (e2.trans ((congrArg ((outsAt0 m c t.val t.isLt).2.2.2.2.1) (drop_unit y)).trans e3))

/-- The two runs' entries at one lane, added: the sum over all 64 points. -/
theorem arr1_pair (c : Dev nD) (l : Fin 128) :
    arr1 m c (ix3 0 0 l) + arr1 m c (ix3 1 0 l) = ∑ t : Fin 64, addend1 m c t.val (ix2 0 l) := by
  rw [← sum_runs (fun n => addend1 m c n (ix2 0 l)), Fin.sum_univ_two]
  unfold arr1
  simp only [zero_add]

/-- One point's share, for a bin below 15: the block's total, over the samples the block holds. -/
theorem addend1_bin (c : Dev nD) (t : Fin 64) (l : Fin 128) (hl : l.val < 15) (k : BitVec 32)
    (hk : k = BitVec.ofNat 32 l.val) :
    addend1 m c t.val (ix2 0 l) = ∑ i : SB.Idx, cntTerm k ((m ((c : Thread nD τ).loc main_arg0)) (flat t i)) * (m ((c : Thread nD τ).loc main_arg0)) (flat t i) := by
  have h : t.val < cfg0.N := lt_of_lt_of_eq t.isLt N_0.symm
  subst hk
  unfold addend1
  rw [dif_pos h, conf_lane (pblk m c ⟨t.val, h⟩) 0 l hl]
  refine Finset.sum_congr rfl fun i _ => ?_
  show cntTerm (BitVec.ofNat 32 l.val) (pblk m c ⟨t.val, h⟩ i) * pblk m c ⟨t.val, h⟩ i = _
  rw [show pblk m c ⟨t.val, h⟩ i = _ from conf_block m c ⟨t.val, h⟩ i, cast_point t h]

/-- The host's sum of the two runs at bin `b`: the bin's total over all samples. -/
theorem host1 (c : Dev nD) (b : S15.Idx) :
    Host.reduceAdd (F := Ideal) (shapeCast S2x15 (extractStridedSlice S2x1x15 ![0, 0, 0] ((dats m 0 c).arrAt 3 cfg0.N)
        slices_S2x1x128_S2x1x15_0_0_0) shapeCasts_S2x1x15_S2x15) (constant S_ .f32 0x00000000#32) reducesTo_S2x15_S15_d0 h_S_ b
      = confTot (m ((c : Thread nD τ).loc main_arg0)) (BitVec.ofNat 32 (b 0).val) := by
  rw [arr1_eq, pair_sum, arr1_pair]
  rw [Finset.sum_congr rfl fun t _ => addend1_bin m c t (lane15 b) (bin_lt b) (BitVec.ofNat 32 (b 0).val) rfl]
  exact sum_blocks (fun e => cntTerm (BitVec.ofNat 32 (b 0).val) ((m ((c : Thread nD τ).loc main_arg0)) e) * (m ((c : Thread nD τ).loc main_arg0)) e)

/-! ## The label array -/

/-- What the label array holds after the run: per run and lane, the sum of the run's lane vectors. -/
def arr2 (c : Dev nD) : S2x1x128.Idx → EReal :=
  fun i => 0 + ∑ s ∈ Finset.range 32, addend2 m c (32 * (i 0).val + s) (ix2 (i 1) (i 2))

theorem arr2_eq (c : Dev nD) : (dats m 0 c).arrAt 4 cfg0.N = arr2 m c := by
  refine final_acc m c (arr2 m c) (fun t h31 y => ?_)
  have e1 := congrFun (out4_eq m c t.val t.isLt h31) y
  have e2 := shapeCast_addUnit_apply ![1, 128] ((outsAt0 m c t.val t.isLt).2.2.2.2.2) shapeCasts_S1x128_S1x1x128 y
  have e3 := sc2_eq m c t.val t.isLt (ix2 (0 : Fin 1) (y 2 : Fin 128))
  rw [h31] at e3
  exact e1.trans (e2.trans ((congrArg ((outsAt0 m c t.val t.isLt).2.2.2.2.2) (drop_unit y)).trans e3))

/-- The two runs' entries at one lane, added: the sum over all 64 points. -/
theorem arr2_pair (c : Dev nD) (l : Fin 128) :
    arr2 m c (ix3 0 0 l) + arr2 m c (ix3 1 0 l) = ∑ t : Fin 64, addend2 m c t.val (ix2 0 l) := by
  rw [← sum_runs (fun n => addend2 m c n (ix2 0 l)), Fin.sum_univ_two]
  unfold arr2
  simp only [zero_add]

/-- One point's share, for a bin below 15: the block's total, over the samples the block holds. -/
theorem addend2_bin (c : Dev nD) (t : Fin 64) (l : Fin 128) (hl : l.val < 15) (k : BitVec 32)
    (hk : k = BitVec.ofNat 32 l.val) :
    addend2 m c t.val (ix2 0 l) = ∑ i : SB.Idx, cntTerm k ((m ((c : Thread nD τ).loc main_arg0)) (flat t i)) * label ((m ((c : Thread nD τ).loc main_arg1)) (flat t i)) := by
  have h : t.val < cfg0.N := lt_of_lt_of_eq t.isLt N_0.symm
  subst hk
  unfold addend2
  rw [dif_pos h, acc_lane (pblk m c ⟨t.val, h⟩) (lblk m c ⟨t.val, h⟩) 0 l hl]
  refine Finset.sum_congr rfl fun i _ => ?_
  show cntTerm (BitVec.ofNat 32 l.val) (pblk m c ⟨t.val, h⟩ i) * label (lblk m c ⟨t.val, h⟩ i) = _
  rw [show lblk m c ⟨t.val, h⟩ i = _ from label_block m c ⟨t.val, h⟩ i, show pblk m c ⟨t.val, h⟩ i = _ from conf_block m c ⟨t.val, h⟩ i, cast_point t h]

/-- The host's sum of the two runs at bin `b`: the bin's total over all samples. -/
theorem host2 (c : Dev nD) (b : S15.Idx) :
    Host.reduceAdd (F := Ideal) (shapeCast S2x15 (extractStridedSlice S2x1x15 ![0, 0, 0] ((dats m 0 c).arrAt 4 cfg0.N)
        slices_S2x1x128_S2x1x15_0_0_0) shapeCasts_S2x1x15_S2x15) (constant S_ .f32 0x00000000#32) reducesTo_S2x15_S15_d0 h_S_ b
      = accTot (m ((c : Thread nD τ).loc main_arg0)) (m ((c : Thread nD τ).loc main_arg1)) (BitVec.ofNat 32 (b 0).val) := by
  rw [arr2_eq, pair_sum, arr2_pair]
  rw [Finset.sum_congr rfl fun t _ => addend2_bin m c t (lane15 b) (bin_lt b) (BitVec.ofNat 32 (b 0).val) rfl]
  exact sum_blocks (fun e => cntTerm (BitVec.ofNat 32 (b 0).val) ((m ((c : Thread nD τ).loc main_arg0)) e) * label ((m ((c : Thread nD τ).loc main_arg1)) e))

end Cert.KernelIdeal.Totals

end
-- ==== Proof.Tail.lean ====
/-
  The closing formula the two programs share, and the kernel program's run read through its host tail.

  Both programs end with the same ten operations on three fifteen-bin vectors (count, sum of confidences, sum of labels):
  the count bounded below by one, the two sums divided by it, the count divided by the number of samples, and the sum
  over the bins of that share times the distance between the two means.  The formula is written once, over any float
  model; the reference's result is it by unfolding, and the kernel program's result is it applied to the row sums of the
  kernel's three outputs, which is what the host lines after the kernel compute.
-/
import proofs.«177050_j16947940950786_1_alg».proof.Proof.Gen.KernelIdeal.Frame
import proofs.«177050_j16947940950786_1_alg».proof.Proof.Gen.ReferenceIdeal.Read
import Idealize.ShloMosaic.Lib.Pipeline.Value
import Idealize.ShloMosaic.Lib.StableHlo.Run
import Idealize.ShloMosaic.Lib.Tactic

noncomputable section

namespace Cert.Ece.Tail

open Idealize.ShloMosaic Idealize.ShloMosaic.TcCoe Idealize.SL.Sem

variable {F : FTy → Type} [FloatOps F]

/-- The scalar shape. -/
abbrev T0 : Shape := ⟨0, ![]⟩
/-- The shape of the fifteen bins. -/
abbrev T15 : Shape := ⟨1, ![15]⟩

/-- The closing formula: from the three binned totals, the sum over the bins of the bin's share of the samples times
    the distance between the bin's mean label and its mean confidence, each mean taken over a count of at least one. -/
def eceTail (hb : T0.BroadcastsInDim T15 (![] : Fin 0 → Fin T15.rank)) (hr : T15.ReducesTo [0] T0) (h0 : 0 < T0.numel)
    (cnt conf acc : FVec F T15 .f32) : FVec F T0 .f32 :=
  Host.reduceAdd
    (mulf (Host.divf cnt (broadcastInDim T15 ![] hb (constant (F := F) T0 .f32 0x4C000000#32)))
      (Host.absf (subf
        (Host.divf acc (maximumf cnt (broadcastInDim T15 ![] hb (constant (F := F) T0 .f32 0x3F800000#32))))
        (Host.divf conf (maximumf cnt (broadcastInDim T15 ![] hb (constant (F := F) T0 .f32 0x3F800000#32)))))))
    (constant (F := F) T0 .f32 0x00000000#32) hr h0

/-- The reference's result is the closing formula of its three scattered totals. -/
theorem ref_tail (x0 : (⟨Cert.ReferenceIdeal.S33554432, .f32⟩ : BufTy).Contents (Elt F))
    (x1 : (⟨Cert.ReferenceIdeal.S33554432, .i32⟩ : BufTy).Contents (Elt F)) :
    Cert.ReferenceIdeal.Read.val_main_v34 (F := F) x0 x1
      = eceTail Cert.ReferenceIdeal.Gen.bcast_S_S15 Cert.ReferenceIdeal.Gen.reducesTo_S15_S_d0 Cert.ReferenceIdeal.Gen.h_S_
          (Cert.ReferenceIdeal.Read.val_main_v15 x0) (Cert.ReferenceIdeal.Read.val_main_v19 x0)
          (Cert.ReferenceIdeal.Read.val_main_v24 x0 x1) := rfl

section Kernel

open Cert.KernelIdeal Cert.KernelIdeal.Gen

variable (m : (ℓ : Loc nD τ sig) → Buf (Elt F) ℓ) (ρ : Dev nD → PrngReg)

/-- One output of the kernel as the host reads it: the first fifteen lanes of each of its two rows, the two rows added. -/
def pairSum (O : FVec F S2x1x128 .f32) : FVec F S15 .f32 :=
  Host.reduceAdd (shapeCast S2x15 (extractStridedSlice S2x1x15 ![0, 0, 0] O slices_S2x1x128_S2x1x15_0_0_0) shapeCasts_S2x1x15_S2x15)
    (constant (F := F) S_ .f32 0x00000000#32) reducesTo_S2x15_S15_d0 h_S_

set_option maxHeartbeats 1000000 in
/-- What the host lines after the kernel leave in the result buffer: the closing formula of the three outputs' row sums,
    each output being what the kernel region leaves in its array. -/
theorem kernel_tail (c : Dev nD) :
    Pipeline.afterTail₀ cfgs (dats m) 0 (V0 m) [hostOps1] c main_v21
      = eceTail bcast_S_S15 reducesTo_S15_S_d0 h_S_ (pairSum ((dats m 0 c).arrAt 2 cfg0.N))
          (pairSum ((dats m 0 c).arrAt 3 cfg0.N)) (pairSum ((dats m 0 c).arrAt 4 cfg0.N)) := by
  unfold Pipeline.afterTail₀
  show StableHlo.after hostOps1 _ (Proc.devRef .tc main_v21) = _
  after_results_simp
  have e2 : Pipeline.withArrays (cfgs 0).spec c (V0 m c) (fun w => (dats m 0 c).arrAt w (cfgs 0).N) (Proc.tc.devRef main_v2_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.tc.devRef main_v2_1)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.tc.devRef main_v2_2)
      = (dats m 0 c).arrAt 4 cfg0.N := Pipeline.withArrays_arr spec0 launch0.win.arr_inj c _ _ 4
  rw [e2, e3, e4]
  rfl

/-- The kernel program's run, read at its result: every weakly fair execution terminates with the result at the closing
    formula of the three outputs' row sums, and the two arguments unchanged. -/
theorem kernel_run : θ_run defs (onTc (τ := τ) (main (F := F))) ⟨m, fun _ => 0, ρ⟩ (fun r => ∀ c : Dev nD,
      r.2.mem ((c.tc : Thread nD τ).loc main_v21)
          = eceTail bcast_S_S15 reducesTo_S15_S_d0 h_S_ (pairSum ((dats m 0 c).arrAt 2 cfg0.N))
              (pairSum ((dats m 0 c).arrAt 3 cfg0.N)) (pairSum ((dats m 0 c).arrAt 4 cfg0.N))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v21 (Pipeline.mem_restRefs_of main_v21 (by decide) (by decide))).trans (kernel_tail m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Kernel

end Cert.Ece.Tail

end
-- ==== Proof.lean ====
/-
  An expected-calibration-error kernel against its jnp reference, over the extended reals.

  Both programs bin 33554432 confidences into fifteen bins by `ceil (15 p) - 1` clipped into [0, 14], weigh a sample
  by whether `0 < p ≤ 1`, and take per bin the count, the sum of confidences and the sum of labels; then both apply
  the same closing formula to those three fifteen-vectors.  The reference takes each total by a scatter-add over the
  bin indices; the kernel, per block of 4096 x 128 samples and per bin, sums the bin's indicator times the weight over
  the block, accumulates the fifteen block sums lane-wise over a run of 32 blocks in each of two runs, and the host adds
  the two runs.  Over the extended reals addition is commutative and associative and multiplication by an indicator
  needs no finiteness, so the two ways of summing agree; the closing formula is never opened.
    · the reference's totals as indicator sums over all samples: Proof/RefBins.lean;
    · a block's lane vector, lane by lane: Proof/LaneSums.lean; the accumulators point by point: Proof/Carry.lean,
      Proof/Fold.lean; the output arrays and the blocks as stretches of the sample arrays: Proof/Arrays.lean,
      Proof/SumBlocks.lean; the host's sum of the two runs: Proof/HostPair.lean; together: Proof/Totals.lean;
    · the closing formula and the kernel program's run read through it: Proof/Tail.lean.
-/
import proofs.«177050_j16947940950786_1_alg».proof.Defs
import proofs.«177050_j16947940950786_1_alg».proof.Proof.Gen.Kernel
import proofs.«177050_j16947940950786_1_alg».proof.Proof.Gen.Kernel.Skeleton
import proofs.«177050_j16947940950786_1_alg».proof.Proof.Gen.Kernel.Launch
import proofs.«177050_j16947940950786_1_alg».proof.Proof.Gen.Kernel.Points
import proofs.«177050_j16947940950786_1_alg».proof.Proof.Gen.Kernel.Frame
import proofs.«177050_j16947940950786_1_alg».proof.Proof.Gen.KernelIdeal
import proofs.«177050_j16947940950786_1_alg».proof.Proof.Gen.KernelIdeal.Skeleton
import proofs.«177050_j16947940950786_1_alg».proof.Proof.Gen.KernelIdeal.Launch
import proofs.«177050_j16947940950786_1_alg».proof.Proof.Gen.KernelIdeal.Points
import proofs.«177050_j16947940950786_1_alg».proof.Proof.Gen.KernelIdeal.Frame
import proofs.«177050_j16947940950786_1_alg».proof.Proof.Gen.ReferenceIdeal
import proofs.«177050_j16947940950786_1_alg».proof.Proof.Gen.Pre_finite_inputs
import proofs.«177050_j16947940950786_1_alg».proof.Proof.Gen.ReferenceIdeal.Run
import proofs.«177050_j16947940950786_1_alg».proof.Proof.Gen.ReferenceIdeal.Read
import proofs.«177050_j16947940950786_1_alg».proof.Proof.RefBins
import proofs.«177050_j16947940950786_1_alg».proof.Proof.Totals
import proofs.«177050_j16947940950786_1_alg».proof.Proof.Tail
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the closing formula of three fifteen-vectors; bin by bin each of the kernel's vectors is the
    reference's: the same total over all samples. -/
theorem algebraic : Cert.algebraic_KernelIdeal_ReferenceIdeal := by
  intro m ρ m' ρ' _ hagree
  refine ⟨_, Cert.Ece.Tail.kernel_run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.Ece.Tail.ref_tail, (hagree c).1, (hagree c).2]
  have h0 : Cert.ReferenceIdeal.Read.val_main_v15 (F := Ideal)
        (m ((c.tc : Thread Cert.KernelIdeal.nD Cert.KernelIdeal.τ).loc Cert.KernelIdeal.main_arg0))
      = Cert.Ece.Tail.pairSum (F := Ideal) ((Cert.KernelIdeal.Gen.dats m 0 c).arrAt 2 Cert.KernelIdeal.cfg0.N) :=
    by funext b; rw [Cert.Ece.Ref.ref_cnt]; exact (Cert.KernelIdeal.Totals.host0 m c b).symm
  have h1 : Cert.ReferenceIdeal.Read.val_main_v19 (F := Ideal)
        (m ((c.tc : Thread Cert.KernelIdeal.nD Cert.KernelIdeal.τ).loc Cert.KernelIdeal.main_arg0))
      = Cert.Ece.Tail.pairSum (F := Ideal) ((Cert.KernelIdeal.Gen.dats m 0 c).arrAt 3 Cert.KernelIdeal.cfg0.N) :=
    by funext b; rw [Cert.Ece.Ref.ref_conf]; exact (Cert.KernelIdeal.Totals.host1 m c b).symm
  have h2 : Cert.ReferenceIdeal.Read.val_main_v24 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.Ece.Tail.pairSum (F := Ideal) ((Cert.KernelIdeal.Gen.dats m 0 c).arrAt 4 Cert.KernelIdeal.cfg0.N) :=
    by funext b; rw [Cert.Ece.Ref.ref_acc]; exact (Cert.KernelIdeal.Totals.host2 m c b).symm
  rw [h0, h1, h2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
